-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x64 : Shape := ⟨2, ![500000, 64]⟩
abbrev S1024x64 : Shape := ⟨2, ![1024, 64]⟩
abbrev S500000 : Shape := ⟨1, ![500000]⟩
abbrev S384x32 : Shape := ⟨2, ![384, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S1024x64 : S_.BroadcastsInDim S1024x64 (![] : Fin 0 → Fin S1024x64.rank)
  reducesTo_S1024x64_S_d0_1 : S1024x64.ReducesTo [0, 1] S_
  bcast_S_S384x32 : S_.BroadcastsInDim S384x32 (![] : Fin 0 → Fin S384x32.rank)
  reducesTo_S384x32_S_d0_1 : S384x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg4 : IVec S500000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S500000 32 := broadcastInDim S500000 ![] bcast_S_S500000 main_c_14
  let main_v40 : IVec S500000 1 := cmpi .sge main_arg4 main_v39
  let main_c_15 : IVec S_ 32 := constantI S_ 32 1024#32
  let main_v41 : IVec S500000 32 := broadcastInDim S500000 ![] bcast_S_S500000 main_c_15
  let main_v42 : IVec S500000 1 := cmpi .slt main_arg4 main_v41
  let main_v43 : IVec S500000 1 := andi main_v40 main_v42
  let main_c_16 : IVec S_ 1 := constantI S_ 1 1#1
  let main_v44 : IVec S_ 1 := (fun x v => Host.reduce IntOp.andi x v reducesTo_S500000_S_d0 h_S_) main_v43 main_c_16
  let main_v45 : IVec S_ 1 := andi main_v38 main_v44
  main_v45

def fn_part1 {F : FTy → Type} [FloatOps F] (main_arg4 : IVec S500000 32) (main_arg5 : FVec F S384x32 .f32) (main_arg6 : FVec F S32 .f32) (main_arg7 : FVec F S32x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S384x32 .f32 := Host.absf main_arg5
  let main_cst_6 : FVec F S_ .f32 := constant S_ .f32 0x7F800000#32
  let main_v20 : FVec F S384x32 .f32 := broadcastInDim S384x32 ![] bcast_S_S384x32 main_cst_6
  let main_v21 : IVec S384x32 1 := cmpf .olt main_v19 main_v20
  let main_c_7 : IVec S_ 1 := constantI S_ 1 1#1
  let main_v22 : IVec S_ 1 := (fun x v => Host.reduce IntOp.andi x v reducesTo_S384x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg4 main_arg8 main_v33

def fn {F : FTy → Type} [FloatOps F] (main_arg0 : FVec F S500000x128 .f32) (main_arg1 : FVec F S500000x128 .f32) (main_arg2 : FVec F S500000x64 .f32) (main_arg3 : FVec F S1024x64 .f32) (main_arg4 : IVec S500000 32) (main_arg5 : FVec F S384x32 .f32) (main_arg6 : FVec F S32 .f32) (main_arg7 : FVec F S32x64 .f32) (main_arg8 : FVec F S64 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S500000x128 : Shape := ⟨2, ![500000, 128]⟩
abbrev S500000x64 : Shape := ⟨2, ![500000, 64]⟩
abbrev S1024x64 : Shape := ⟨2, ![1024, 64]⟩
abbrev S500000 : Shape := ⟨1, ![500000]⟩
abbrev S384x32 : Shape := ⟨2, ![384, 32]⟩
abbrev S32 : Shape := ⟨1, ![32]⟩
abbrev S32x64 : Shape := ⟨2, ![32, 64]⟩
abbrev S64 : Shape := ⟨1, ![64]⟩
abbrev S500000x1 : Shape := ⟨2, ![500000, 1]⟩
abbrev S2048x128 : Shape := ⟨2, ![2048, 128]⟩
abbrev S2048x64 : Shape := ⟨2, ![2048, 64]⟩
abbrev S2048x1 : Shape := ⟨2, ![2048, 1]⟩
abbrev S2048x1024 : Shape := ⟨2, ![2048, 1024]⟩
abbrev S2048x384 : Shape := ⟨2, ![2048, 384]⟩
abbrev S1x32 : Shape := ⟨2, ![1, 32]⟩
abbrev S2048x32 : Shape := ⟨2, ![2048, 32]⟩
abbrev S1x64 : Shape := ⟨2, ![1, 64]⟩

abbrev nBuf : Space → Nat
  | .hbm => 11
  | .vmem => 15
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S1024x64, .f32⟩
  | .hbm, ⟨4, _⟩ => ⟨S500000, .i32⟩
  | .hbm, ⟨5, _⟩ => ⟨S384x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S500000x1, .i32⟩
  | .hbm, ⟨10, _⟩ => ⟨S500000x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x64, .f32⟩
  | .local _ .vmem, ⟨5, _⟩ => ⟨S2048x64, .f32⟩
  | .local _ .vmem, ⟨6, _⟩ => ⟨S2048x1, .i32⟩
  | .local _ .vmem, ⟨7, _⟩ => ⟨S2048x1, .i32⟩
  | .local _ .vmem, ⟨8, _⟩ => ⟨S1024x64, .f32⟩
  | .local _ .vmem, ⟨9, _⟩ => ⟨S384x32, .f32⟩
  | .local _ .vmem, ⟨10, _⟩ => ⟨S32, .f32⟩
  | .local _ .vmem, ⟨11, _⟩ => ⟨S32x64, .f32⟩
  | .local _ .vmem, ⟨12, _⟩ => ⟨S64, .f32⟩
  | .local _ .vmem, ⟨13, _⟩ => ⟨S2048x64, .f32⟩
  | .local _ .vmem, ⟨14, _⟩ => ⟨S2048x64, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S500000_S500000x1 : S500000.ShapeCasts S500000x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2048x128_S2048x128_0_0 : ∀ a, (![0, 0] : Fin 2 → Nat) a + S2048x128.size a ≤ S2048x128.size a
  h_S2048x128 : 0 < S2048x128.numel
  inb_S2048x64_S2048x64_0_0 : ∀ a, (![0, 0] : Fin 2 → Nat) a + S2048x64.size a ≤ S2048x64.size a
  h_S2048x64 : 0 < S2048x64.numel
  concatenates_S2048x128_S2048x128_S2048x64_S2048x64_S2048x384_d1 : Shape.Concatenates [S2048x128, S2048x128, S2048x64, S2048x64] S2048x384 1
  inb_S384x32_S384x32_0_0 : ∀ a, (![0, 0] : Fin 2 → Nat) a + S384x32.size a ≤ S384x32.size a
  h_S384x32 : 0 < S384x32.numel
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  dot_S2048x1024_S1024x64_S2048x64_1_0_0_1_n_n_wf : DotDims.WF S2048x1024 S1024x64 S2048x64 [1] [0] [0] [1] [] []
  dot_S2048x384_S384x32_S2048x32_1_0_0_1_n_n_wf : DotDims.WF S2048x384 S384x32 S2048x32 [1] [0] [0] [1] [] []
  dot_S2048x32_S32x64_S2048x64_1_0_0_1_n_n_wf : DotDims.WF S2048x32 S32x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x128.size a < S500000x128.size a
  hwx0_0 : ∀ i : grid0.Coords, EltTy.bits .f32 = 32 ∨ (Rect.unit (s := S500000x128) (fun a => cc0_transform_0 i a * S2048x128.size a) (fun a => (Pipeline.Clip.of (cc0_transform_0 i a) (S2048x128.size a) (S500000x128.size a)).extent (S2048x128.size a)) fun a => Pipeline.Clip.inb (Pipeline.Clip.ok_of (hstart0_0 i a))).WholeWords (EltTy.packing .f32)
  hwxs0_0 : ∀ i : grid0.Coords, EltTy.bits .f32 = 32 ∨ (Rect.unit (s := S2048x128) (fun _ => 0) (fun a => (Pipeline.Clip.of (cc0_transform_0 i a) (S2048x128.size a) (S500000x128.size a)).extent (S2048x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S500000x128.size a
  hwx0_1 : ∀ i : grid0.Coords, EltTy.bits .f32 = 32 ∨ (Rect.unit (s := S500000x128) (fun a => cc0_transform_1 i a * S2048x128.size a) (fun a => (Pipeline.Clip.of (cc0_transform_1 i a) (S2048x128.size a) (S500000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S500000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x64.size a < S500000x64.size a
  hwx0_2 : ∀ i : grid0.Coords, EltTy.bits .f32 = 32 ∨ (Rect.unit (s := S500000x64) (fun a => cc0_transform_2 i a * S2048x64.size a) (fun a => (Pipeline.Clip.of (cc0_transform_2 i a) (S2048x64.size a) (S500000x64.size a)).extent (S2048x64.size a)) fun a => Pipeline.Clip.inb (Pipeline.Clip.ok_of (hstart0_2 i a))).WholeWords (EltTy.packing .f32)
  hwxs0_2 : ∀ i : grid0.Coords, EltTy.bits .f32 = 32 ∨ (Rect.unit (s := S2048x64) (fun _ => 0) (fun a => (Pipeline.Clip.of (cc0_transform_2 i a) (S2048x64.size a) (S500000x64.size a)).extent (S2048x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x1.size a < S500000x1.size a
  hwx0_3 : ∀ i : grid0.Coords, EltTy.bits .i32 = 32 ∨ (Rect.unit (s := S500000x1) (fun a => cc0_transform_3 i a * S2048x1.size a) (fun a => (Pipeline.Clip.of (cc0_transform_3 i a) (S2048x1.size a) (S500000x1.size a)).extent (S2048x1.size a)) fun a => Pipeline.Clip.inb (Pipeline.Clip.ok_of (hstart0_3 i a))).WholeWords (EltTy.packing .i32)
  hwxs0_3 : ∀ i : grid0.Coords, EltTy.bits .i32 = 32 ∨ (Rect.unit (s := S2048x1) (fun _ => 0) (fun a => (Pipeline.Clip.of (cc0_transform_3 i a) (S2048x1.size a) (S500000x1.size a)).extent (S2048x1.size a)) fun a => (Nat.zero_add _).trans_le (Pipeline.Clip.extent_le (Pipeline.Clip.ok_of (hstart0_3 i a)))).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x32.size a ≤ S384x32.size a
  hwx0_5 : ∀ i : grid0.Coords, EltTy.bits .f32 = 32 ∨ (Rect.block (s := S384x32) S384x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S2048x64.size a < S500000x64.size a
  hwx0_9 : ∀ i : grid0.Coords, EltTy.bits .f32 = 32 ∨ (Rect.unit (s := S500000x64) (fun a => cc0_transform_9 i a * S2048x64.size a) (fun a => (Pipeline.Clip.of (cc0_transform_9 i a) (S2048x64.size a) (S500000x64.size a)).extent (S2048x64.size a)) fun a => Pipeline.Clip.inb (Pipeline.Clip.ok_of (hstart0_9 i a))).WholeWords (EltTy.packing .f32)
  hwxs0_9 : ∀ i : grid0.Coords, EltTy.bits .f32 = 32 ∨ (Rect.unit (s := S2048x64) (fun _ => 0) (fun a => (Pipeline.Clip.of (cc0_transform_9 i a) (S2048x64.size a) (S500000x64.size a)).extent (S2048x64.size a)) fun a => (Nat.zero_add _).trans_le (Pipeline.Clip.extent_le (Pipeline.Clip.ok_of (hstart0_9 i a)))).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x384_S384x32_S2048x32_1_0_0_1_n_n : DotDims S2048x384 S384x32 S2048x32 where
  lhsContracting := [1]
  rhsContracting := [0]
  lhsNonContracting := [0]
  rhsNonContracting := [1]
  lhsBatch := []
  rhsBatch := []
  wf := dot_S2048x384_S384x32_S2048x32_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf

abbrev win0_0 : Pipeline.Window sig grid0 :=
  Pipeline.Window.ofSpecClip (Memref.whole main_arg0) S2048x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S2048x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S2048x1.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_arg3) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v1) S2048x64.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000x64 : Shape := ⟨2, ![500000, 64]⟩
abbrev S1024x64 : Shape := ⟨2, ![1024, 64]⟩
abbrev S500000 : Shape := ⟨1, ![500000]⟩
abbrev S384x32 : Shape := ⟨2, ![384, 32]⟩
abbrev S32 : Shape := ⟨1, ![32]⟩
abbrev S32x64 : Shape := ⟨2, ![32, 64]⟩
abbrev S64 : Shape := ⟨1, ![64]⟩
abbrev S_ : Shape := ⟨0, ![]⟩
abbrev S500000x1 : Shape := ⟨2, ![500000, 1]⟩
abbrev S500000x384 : Shape := ⟨2, ![500000, 384]⟩
abbrev S500000x32 : Shape := ⟨2, ![500000, 32]⟩
abbrev S1x32 : Shape := ⟨2, ![1, 32]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S1024x64, .f32⟩
  | .hbm, ⟨4, _⟩ => ⟨S500000, .i32⟩
  | .hbm, ⟨5, _⟩ => ⟨S384x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x64, .f32⟩
  | .hbm, ⟨18, _⟩ => ⟨S500000x384, .f32⟩
  | .hbm, ⟨19, _⟩ => ⟨S500000x32, .f32⟩
  | .hbm, ⟨20, _⟩ => ⟨S1x32, .f32⟩
  | .hbm, ⟨21, _⟩ => ⟨S500000x32, .f32⟩
  | .hbm, ⟨22, _⟩ => ⟨S500000x32, .f32⟩
  | .hbm, ⟨23, _⟩ => ⟨S_, .f32⟩
  | .hbm, ⟨24, _⟩ => ⟨S_, .f32⟩
  | .hbm, ⟨25, _⟩ => ⟨S500000x32, .f32⟩
  | .hbm, ⟨26, _⟩ => ⟨S500000x32, .i1⟩
  | .hbm, ⟨27, _⟩ => ⟨S_, .f32⟩
  | .hbm, ⟨28, _⟩ => ⟨S500000x32, .f32⟩
  | .hbm, ⟨29, _⟩ => ⟨S500000x32, .i1⟩
  | .hbm, ⟨30, _⟩ => ⟨S_, .f32⟩
  | .hbm, ⟨31, _⟩ => ⟨S_, .f32⟩
  | .hbm, ⟨32, _⟩ => ⟨S500000x32, .f32⟩
  | .hbm, ⟨33, _⟩ => ⟨S500000x32, .f32⟩
  | .hbm, ⟨34, _⟩ => ⟨S500000x32, .f32⟩
  | .hbm, ⟨35, _⟩ => ⟨S_, .f32⟩
  | .hbm, ⟨36, _⟩ => ⟨S500000x32, .f32⟩
  | .hbm, ⟨37, _⟩ => ⟨S500000x32, .f32⟩
  | .hbm, ⟨38, _⟩ => ⟨S500000x32, .f32⟩
  | .hbm, ⟨39, _⟩ => ⟨S_, .f32⟩
  | .hbm, ⟨40, _⟩ => ⟨S500000x32, .f32⟩
  | .hbm, ⟨41, _⟩ => ⟨S500000x32, .f32⟩
  | .hbm, ⟨42, _⟩ => ⟨S500000x64, .f32⟩
  | .hbm, ⟨43, _⟩ => ⟨S1x64, .f32⟩
  | .hbm, ⟨44, _⟩ => ⟨S500000x64, .f32⟩
  | .hbm, ⟨45, _⟩ => ⟨S500000x64, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst_0 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_cst_1 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x64_S500000x384_d1 : Shape.Concatenates [S500000x128, S500000x128, S500000x64, S500000x64] S500000x384 1
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  gather_S1024x64_S500000x1_S500000x64_1_0_n_n_0_1_164_wf : GatherDims.WF S1024x64 S500000x1 S500000x64 [1] [0] [] [0] [] 1 ![1, 64]
  dot_S500000x384_S384x32_S500000x32_1_0_0_1_n_n_wf : DotDims.WF S500000x384 S384x32 S500000x32 [1] [0] [0] [1] [] []
  dot_S500000x32_S32x64_S500000x64_1_0_0_1_n_n_wf : DotDims.WF S500000x32 S32x64 S500000x64 [1] [0] [0] [1] [] []

variable [Facts₀]

def gather_S1024x64_S500000x1_S500000x64_1_0_n_n_0_1_164 : GatherDims S1024x64 S500000x1 S500000x64 where
  offsetDims := [1]
  collapsedSliceDims := [0]
  operandBatchingDims := []
  startIndicesBatchingDims := []
  startIndexMap := [0]
  indexVectorDim := 1
  sliceSizes := ![1, 64]
  wf := gather_S1024x64_S500000x1_S500000x64_1_0_n_n_0_1_164_wf
def dot_S500000x384_S384x32_S500000x32_1_0_0_1_n_n : DotDims S500000x384 S384x32 S500000x32 where
  lhsContracting := [1]
  rhsContracting := [0]
  lhsNonContracting := [0]
  rhsNonContracting := [1]
  lhsBatch := []
  rhsBatch := []
  wf := dot_S500000x384_S384x32_S500000x32_1_0_0_1_n_n_wf
def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf

class Facts : Prop extends Facts₀ where

variable [Facts]
-- ==== Proof.KernelBody.lean ====
/-
  The kernel body as a step of separation logic, at any float instance: on whole staging buffers, nine of them read
  and one written, the body runs to the end, leaves the nine as it found them and the tenth holding the one value it
  stores — the second affine layer of the activation of the first affine layer of the joined rows.
-/
import proofs.«426121_j19404662243985_1_alg».proof.Proof.Gen.Kernel.Frame
import proofs.«426121_j19404662243985_1_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one a whole buffer -/

abbrev rEdge : Rect S2048x128 := Rect.unit (s := S2048x128) ![0, 0] S2048x128.size inb_S2048x128_S2048x128_0_0
abbrev rAttr : Rect S2048x64 := Rect.unit (s := S2048x64) ![0, 0] S2048x64.size inb_S2048x64_S2048x64_0_0
abbrev rIdx : Rect S2048x1 := Rect.unit (s := S2048x1) ![0, 0] S2048x1.size inb_S2048x1_S2048x1_0_0
abbrev rTab : Rect S1024x64 := Rect.unit (s := S1024x64) ![0, 0] S1024x64.size inb_S1024x64_S1024x64_0_0
abbrev rW1 : Rect S384x32 := Rect.unit (s := S384x32) ![0, 0] S384x32.size inb_S384x32_S384x32_0_0
abbrev rB1 : Rect S32 := Rect.unit (s := S32) ![0] S32.size inb_S32_S32_0
abbrev rW2 : Rect S32x64 := Rect.unit (s := S32x64) ![0, 0] S32x64.size inb_S32x64_S32x64_0_0
abbrev rB2 : Rect S64 := Rect.unit (s := S64) ![0] S64.size inb_S64_S64_0

/-- What the body leaves in the result's buffer, from what the nine input buffers hold: its one store, of the whole
    block, as a piece. -/
def outBlk (x0 x1 : Vec F S2048x128 .f32) (x2 : Vec F S2048x64 .f32) (x3 : Vec F S2048x1 .i32) (x4 : Vec F S1024x64 .f32)
    (x5 : Vec F S384x32 .f32) (x6 : Vec F S32 .f32) (x7 : Vec F S32x64 .f32) (x8 : Vec F S64 .f32) : Vec F S2048x64 .f32 :=
  View.canon [⟨rAttr, k0_pay1 (k0_pay2 (View.ld x3 rIdx) (View.ld x4 rTab) (View.ld x0 rEdge) (View.ld x1 rEdge) (View.ld x2 rAttr)
      (View.ld x5 rW1) (View.ld x6 rB1)) (k0_pay3 (View.ld x7 rW2)) (View.ld x8 rB2)⟩]

/-- The one store covers the buffer. -/
theorem outCover (p0 : Vec F S2048x64 .f32) (y : S2048x64.Idx) :
    ∃ pc ∈ ([⟨rAttr, p0⟩] : List (View.Piece (Elt F) S2048x64 .f32)), y ∈ pc.1.set :=
  View.cover_of_tiled [⟨rAttr, p0⟩] S2048x64.size (by rfl) y

/-- Every access being the whole buffer at offset zero, the stored value is the body's arithmetic of the buffers'
    contents themselves. -/
theorem outBlk_eq (x0 x1 : Vec F S2048x128 .f32) (x2 : Vec F S2048x64 .f32) (x3 : Vec F S2048x1 .i32) (x4 : Vec F S1024x64 .f32)
    (x5 : Vec F S384x32 .f32) (x6 : Vec F S32 .f32) (x7 : Vec F S32x64 .f32) (x8 : Vec F S64 .f32) :
    outBlk x0 x1 x2 x3 x4 x5 x6 x7 x8 = k0_pay1 (k0_pay2 x3 x4 x0 x1 x2 x5 x6) (k0_pay3 x7) x8 := by
  have hz : (![0, 0] : Fin 2 → Nat) = fun _ => 0 := funext fun a => by fin_cases a <;> rfl
  have hz1 : (![0] : Fin 1 → Nat) = fun _ => 0 := funext fun a => by fin_cases a; rfl
  unfold outBlk
  rw [View.canon_unit_zero hz]
  simp only [View.ld_unit_zero (S := S2048x128) hz, View.ld_unit_zero (S := S2048x64) hz, View.ld_unit_zero (S := S2048x1) hz,
    View.ld_unit_zero (S := S1024x64) hz, View.ld_unit_zero (S := S384x32) hz, View.ld_unit_zero (S := S32x64) hz,
    View.ld_unit_zero (S := S32) hz1, View.ld_unit_zero (S := S64) hz1]

/-! ## The body's triple -/

set_option maxHeartbeats 1000000 in
/-- The body on whole staging buffers, the nine inputs' at contents x0 … x8 and the result's at anything, runs to the
    continuation holding the inputs' as they were and the result's at `outBlk` of them. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x64 .f32) (harg3 : arg3.IsWhole) (arg4 : Memref sig .tc .vmem S2048x1 .i32) (harg4 : arg4.IsWhole)
    (arg5 : Memref sig .tc .vmem S1024x64 .f32) (harg5 : arg5.IsWhole) (arg6 : Memref sig .tc .vmem S384x32 .f32) (harg6 : arg6.IsWhole)
    (arg7 : Memref sig .tc .vmem S32 .f32) (harg7 : arg7.IsWhole) (arg8 : Memref sig .tc .vmem S32x64 .f32) (harg8 : arg8.IsWhole)
    (arg9 : Memref sig .tc .vmem S64 .f32) (harg9 : arg9.IsWhole) (arg10 : Memref sig .tc .vmem S2048x64 .f32) (harg10 : arg10.IsWhole)
    (x0 x1 : Vec F S2048x128 .f32) (x2 : Vec F S2048x64 .f32) (x3 : Vec F S2048x1 .i32) (x4 : Vec F S1024x64 .f32)
    (x5 : Vec F S384x32 .f32) (x6 : Vec F S32 .f32) (x7 : Vec F S32x64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outBlk x0 x1 x2 x3 x4 x5 x6 x7 x8)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outCover _)

end Cert.Kernel.Hand

end
-- ==== Proof.KernelRun.lean ====
/-
  The word-level kernel's frame. At the word level the matrix products are not row-wise (a row of a product may
  depend on every row of its left operand), so what the body leaves in the result's buffer on the rows the write-back
  keeps is not named: this module says nothing of what the moving windows' buffers hold — the four moving inputs,
  whose last blocks overhang their arrays, and the result — and only that each of the five resident inputs' buffers
  holds its whole array at every point and is left as found. That is all the frame wants: the run terminates, nothing
  faults, and no argument array is written.
-/
import proofs.«426121_j19404662243985_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows of which nothing is said: the four moving inputs (0 to 3) and the result (9). -/
def forgets : Fin 10 → Bool := fun w => w.val == 0 || w.val == 1 || w.val == 2 || w.val == 3 || w.val == 9

/-- The proof data of the one pipeline on a core: the arrays as the region finds them; after the body each resident
    input's buffer at its whole array; the other windows' contents not named. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- A resident input's buffer holds the whole array at every point, fetched there or not. -/
theorem before_4 (c : Dev nD) (t : Fin cfg0.N) (d) : (dats m 0 c).before 4 t d = iblk m c 4 t :=
  before0_4_of m (dats m 0 c) (A_eq m c 4) (after0_4 m c) t d
theorem before_5 (c : Dev nD) (t : Fin cfg0.N) (d) : (dats m 0 c).before 5 t d = iblk m c 5 t :=
  before0_5_of m (dats m 0 c) (A_eq m c 5) (after0_5 m c) t d
theorem before_6 (c : Dev nD) (t : Fin cfg0.N) (d) : (dats m 0 c).before 6 t d = iblk m c 6 t :=
  before0_6_of m (dats m 0 c) (A_eq m c 6) (after0_6 m c) t d
theorem before_7 (c : Dev nD) (t : Fin cfg0.N) (d) : (dats m 0 c).before 7 t d = iblk m c 7 t :=
  before0_7_of m (dats m 0 c) (A_eq m c 7) (after0_7 m c) t d
theorem before_8 (c : Dev nD) (t : Fin cfg0.N) (d) : (dats m 0 c).before 8 t d = iblk m c 8 t :=
  before0_8_of m (dats m 0 c) (A_eq m c 8) (after0_8 m c) t d

/-! ## The body's obligation at every point -/

/-- What the body is called with at point t, the windows one by one: a window of which nothing is said at any
    contents, a resident input at what it holds, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

/-- and what it returns. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

/-- The body at any point: it runs on whatever the moving windows' buffers hold, and leaves the resident inputs'
    buffers as it found them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_4, before_5, before_6, before_7, before_8]
  rw [show (dats m 0 c).Φ t.succ = (dats m 0 c).Φ t.castSucc from rfl,
    show (dats m 0 c).owesAt () t.succ = (dats m 0 c).owesAt () t.castSucc from rfl,
    after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel (F := F) c Set.univ (grid0.coords t) _ _ _ _ _ _ _ _ _ _ _ _ _ _ _ _ _ _ _ _
    d0 d1 d2 d3 (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  iintro ⟨H0, H1, H2, H3, H4, H5, H6, H7, H8, H9⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iexact H8
  iexists _; iexact H9

theorem body_obligation (c : Dev nD) :
    BodyObligation (dats (F := F) m 0 c) (defs₀ (F := F)) Variants.none () Set.univ forgets := fun t => by
  rw [bigSep_W0, bigSep_W0]
  exact sound_body m c t

/-! ## The run and the frame -/

set_option backward.isDefEq.respectTransparency.types false in
/-- From any memory with zero counters every weakly fair execution of @main terminates; every input array of the
    pipeline ends as the region found it, and so does every other unscoped buffer. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim's post from a relational frame run: an input array of the pipeline ends at its entry contents, the
    index array is among the other unscoped buffers, and each is as launched since the one host operation before the
    region writes none of them. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c))⟩) h

/-- The nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets) (A_eq m) (run_main m ρ)

end Cert.Kernel.Hand

end
-- ==== Proof.KernelIdealBody.lean ====
/-
  The kernel body as a step of separation logic, at any float instance: on whole staging buffers, nine of them read
  and one written, the body runs to the end, leaves the nine as it found them and the tenth holding the one value it
  stores — the second affine layer of the activation of the first affine layer of the joined rows.
-/
import proofs.«426121_j19404662243985_1_alg».proof.Proof.Gen.KernelIdeal.Frame
import proofs.«426121_j19404662243985_1_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one a whole buffer -/

abbrev rEdge : Rect S2048x128 := Rect.unit (s := S2048x128) ![0, 0] S2048x128.size inb_S2048x128_S2048x128_0_0
abbrev rAttr : Rect S2048x64 := Rect.unit (s := S2048x64) ![0, 0] S2048x64.size inb_S2048x64_S2048x64_0_0
abbrev rIdx : Rect S2048x1 := Rect.unit (s := S2048x1) ![0, 0] S2048x1.size inb_S2048x1_S2048x1_0_0
abbrev rTab : Rect S1024x64 := Rect.unit (s := S1024x64) ![0, 0] S1024x64.size inb_S1024x64_S1024x64_0_0
abbrev rW1 : Rect S384x32 := Rect.unit (s := S384x32) ![0, 0] S384x32.size inb_S384x32_S384x32_0_0
abbrev rB1 : Rect S32 := Rect.unit (s := S32) ![0] S32.size inb_S32_S32_0
abbrev rW2 : Rect S32x64 := Rect.unit (s := S32x64) ![0, 0] S32x64.size inb_S32x64_S32x64_0_0
abbrev rB2 : Rect S64 := Rect.unit (s := S64) ![0] S64.size inb_S64_S64_0

/-- What the body leaves in the result's buffer, from what the nine input buffers hold: its one store, of the whole
    block, as a piece. -/
def outBlk (x0 x1 : Vec F S2048x128 .f32) (x2 : Vec F S2048x64 .f32) (x3 : Vec F S2048x1 .i32) (x4 : Vec F S1024x64 .f32)
    (x5 : Vec F S384x32 .f32) (x6 : Vec F S32 .f32) (x7 : Vec F S32x64 .f32) (x8 : Vec F S64 .f32) : Vec F S2048x64 .f32 :=
  View.canon [⟨rAttr, k0_pay1 (k0_pay2 (View.ld x3 rIdx) (View.ld x4 rTab) (View.ld x0 rEdge) (View.ld x1 rEdge) (View.ld x2 rAttr)
      (View.ld x5 rW1) (View.ld x6 rB1)) (k0_pay3 (View.ld x7 rW2)) (View.ld x8 rB2)⟩]

/-- The one store covers the buffer. -/
theorem outCover (p0 : Vec F S2048x64 .f32) (y : S2048x64.Idx) :
    ∃ pc ∈ ([⟨rAttr, p0⟩] : List (View.Piece (Elt F) S2048x64 .f32)), y ∈ pc.1.set :=
  View.cover_of_tiled [⟨rAttr, p0⟩] S2048x64.size (by rfl) y

/-- Every access being the whole buffer at offset zero, the stored value is the body's arithmetic of the buffers'
    contents themselves. -/
theorem outBlk_eq (x0 x1 : Vec F S2048x128 .f32) (x2 : Vec F S2048x64 .f32) (x3 : Vec F S2048x1 .i32) (x4 : Vec F S1024x64 .f32)
    (x5 : Vec F S384x32 .f32) (x6 : Vec F S32 .f32) (x7 : Vec F S32x64 .f32) (x8 : Vec F S64 .f32) :
    outBlk x0 x1 x2 x3 x4 x5 x6 x7 x8 = k0_pay1 (k0_pay2 x3 x4 x0 x1 x2 x5 x6) (k0_pay3 x7) x8 := by
  have hz : (![0, 0] : Fin 2 → Nat) = fun _ => 0 := funext fun a => by fin_cases a <;> rfl
  have hz1 : (![0] : Fin 1 → Nat) = fun _ => 0 := funext fun a => by fin_cases a; rfl
  unfold outBlk
  rw [View.canon_unit_zero hz]
  simp only [View.ld_unit_zero (S := S2048x128) hz, View.ld_unit_zero (S := S2048x64) hz, View.ld_unit_zero (S := S2048x1) hz,
    View.ld_unit_zero (S := S1024x64) hz, View.ld_unit_zero (S := S384x32) hz, View.ld_unit_zero (S := S32x64) hz,
    View.ld_unit_zero (S := S32) hz1, View.ld_unit_zero (S := S64) hz1]

/-! ## The body's triple -/

set_option maxHeartbeats 1000000 in
/-- The body on whole staging buffers, the nine inputs' at contents x0 … x8 and the result's at anything, runs to the
    continuation holding the inputs' as they were and the result's at `outBlk` of them. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x64 .f32) (harg3 : arg3.IsWhole) (arg4 : Memref sig .tc .vmem S2048x1 .i32) (harg4 : arg4.IsWhole)
    (arg5 : Memref sig .tc .vmem S1024x64 .f32) (harg5 : arg5.IsWhole) (arg6 : Memref sig .tc .vmem S384x32 .f32) (harg6 : arg6.IsWhole)
    (arg7 : Memref sig .tc .vmem S32 .f32) (harg7 : arg7.IsWhole) (arg8 : Memref sig .tc .vmem S32x64 .f32) (harg8 : arg8.IsWhole)
    (arg9 : Memref sig .tc .vmem S64 .f32) (harg9 : arg9.IsWhole) (arg10 : Memref sig .tc .vmem S2048x64 .f32) (harg10 : arg10.IsWhole)
    (x0 x1 : Vec F S2048x128 .f32) (x2 : Vec F S2048x64 .f32) (x3 : Vec F S2048x1 .i32) (x4 : Vec F S1024x64 .f32)
    (x5 : Vec F S384x32 .f32) (x6 : Vec F S32 .f32) (x7 : Vec F S32x64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outBlk x0 x1 x2 x3 x4 x5 x6 x7 x8)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outCover _)

end Cert.KernelIdeal.Hand

end
-- ==== Proof.Spec.lean ====
/-
  The per-edge network both programs compute, written once over the extended reals.

  For an edge e the feature row is the concatenation of src[e] (128 entries), dest[e] (128), edge_attr[e] (64) and one
  row of the table u (64): 384 entries. The hidden layer is selu(x · W1 + b1), 32 entries; the result row is
  hidden · W2 + b2, 64 entries. The table row is spelt here as the kernel spells it: the sum over all 1024 table rows
  weighted by the indicator "batch[e] = k" (a one-hot row times the table); when 0 ≤ batch[e] < 1024 that sum is the
  single row u[batch[e]] (`pickRow_eq`), which is what a row lookup reads.
-/
import Idealize.ShloMosaic.PureOps.Ideal
import Idealize.ShloMosaic.Lib.ValueIdx

noncomputable section

open scoped BigOperators

namespace EdgeMlp

open Idealize.ShloMosaic Idealize.ShloMosaic.ValueIdx

/-- The scaled exponential linear unit with its two single-precision constants (scale 0x3F867D5F, alpha 0x3FD62D7D):
    scale · z for z > 0, scale · alpha · (exp z − 1) otherwise. -/
def selu (z : EReal) : EReal :=
  Ideal.ofBits .f32 0x3F867D5F#32 *
    Scalar.select (Ideal.cmp .ogt z (Ideal.ofBits .f32 0x00000000#32)) z
      (Ideal.ofBits .f32 0x3FD62D7D#32 * (Ideal.exp z - 1))

/-- Four rows laid end to end: 128 + 128 + 64 + 64 = 384 entries. -/
def catRow (s d : Fin 128 → EReal) (a g : Fin 64 → EReal) (j : Fin 384) : EReal :=
  if h1 : j.val < 128 then s ⟨j.val, h1⟩
  else if h2 : j.val < 256 then d ⟨j.val - 128, by omega⟩
  else if h3 : j.val < 320 then a ⟨j.val - 256, by omega⟩
  else g ⟨j.val - 320, by have := j.isLt; omega⟩

/-- Entry h of the hidden layer of a feature row x. -/
def hidden (x : Fin 384 → EReal) (W1 : (⟨2, ![384, 32]⟩ : Shape).Idx → EReal) (b1 : (⟨1, ![32]⟩ : Shape).Idx → EReal)
    (h : Fin 32) : EReal :=
  selu ((∑ j : Fin 384, x j * W1 (ix2 j h)) + b1 (ix1 h))

/-- Entry c of the result row of a feature row x. -/
def outRow (x : Fin 384 → EReal) (W1 : (⟨2, ![384, 32]⟩ : Shape).Idx → EReal) (b1 : (⟨1, ![32]⟩ : Shape).Idx → EReal)
    (W2 : (⟨2, ![32, 64]⟩ : Shape).Idx → EReal) (b2 : (⟨1, ![64]⟩ : Shape).Idx → EReal) (c : Fin 64) : EReal :=
  (∑ h : Fin 32, hidden x W1 b1 h * W2 (ix2 h c)) + b2 (ix1 c)

/-- The one-hot row of the word b against the table: Σ_k [b = k] · u[k, g]. -/
def pickRow (u : (⟨2, ![1024, 64]⟩ : Shape).Idx → EReal) (b : BitVec 32) (g : Fin 64) : EReal :=
  ∑ k : Fin 1024, (if b = BitVec.ofNat 32 k.val then (1 : EReal) else 0) * u (ix2 k g)

/-- For a word in range the one-hot sum has one non-zero term: the table's row at that word. -/
theorem pickRow_eq (u : (⟨2, ![1024, 64]⟩ : Shape).Idx → EReal) (b : BitVec 32) (g : Fin 64)
    (h0 : 0 ≤ b.toInt) (h1 : b.toInt < 1024) :
    pickRow u b g = u (ix2 (⟨b.toNat, by
      have := BitVec.toInt_eq_toNat_cond b; split at this <;> omega⟩ : Fin 1024) g) := by
  have hn : b.toNat < 1024 := by
    have := BitVec.toInt_eq_toNat_cond b; split at this <;> omega
  unfold pickRow
  rw [Finset.sum_eq_single (⟨b.toNat, hn⟩ : Fin 1024)]
  · rw [if_pos (by simp), one_mul]
  · intro k _ hk
    rw [if_neg, zero_mul]
    intro hb
    apply hk
    apply Fin.ext
    have : b.toNat = k.val := by
      rw [hb, BitVec.toNat_ofNat]
      exact Nat.mod_eq_of_lt (by have := k.isLt; omega)
    exact this.symm
  · intro h; exact absurd (Finset.mem_univ _) h

/-- The whole result array: row e is the result row of edge e's feature row, the table row picked by batch[e]. -/
def Gk (src dest : (⟨2, ![500000, 128]⟩ : Shape).Idx → EReal) (ea : (⟨2, ![500000, 64]⟩ : Shape).Idx → EReal)
    (u : (⟨2, ![1024, 64]⟩ : Shape).Idx → EReal) (batch : (⟨1, ![500000]⟩ : Shape).Idx → BitVec 32)
    (W1 : (⟨2, ![384, 32]⟩ : Shape).Idx → EReal) (b1 : (⟨1, ![32]⟩ : Shape).Idx → EReal)
    (W2 : (⟨2, ![32, 64]⟩ : Shape).Idx → EReal) (b2 : (⟨1, ![64]⟩ : Shape).Idx → EReal) :
    (⟨2, ![500000, 64]⟩ : Shape).Idx → EReal := fun i =>
  outRow (catRow (fun j => src (ix2 (⟨(i 0).val, idx2_lt0 i⟩ : Fin 500000) j))
      (fun j => dest (ix2 (⟨(i 0).val, idx2_lt0 i⟩ : Fin 500000) j))
      (fun j => ea (ix2 (⟨(i 0).val, idx2_lt0 i⟩ : Fin 500000) j))
      (pickRow u (batch (ix1 (⟨(i 0).val, idx2_lt0 i⟩ : Fin 500000))))) W1 b1 W2 b2 ⟨(i 1).val, idx2_lt1 i⟩

theorem Gk_apply (src dest : (⟨2, ![500000, 128]⟩ : Shape).Idx → EReal) (ea : (⟨2, ![500000, 64]⟩ : Shape).Idx → EReal)
    (u : (⟨2, ![1024, 64]⟩ : Shape).Idx → EReal) (batch : (⟨1, ![500000]⟩ : Shape).Idx → BitVec 32)
    (W1 : (⟨2, ![384, 32]⟩ : Shape).Idx → EReal) (b1 : (⟨1, ![32]⟩ : Shape).Idx → EReal)
    (W2 : (⟨2, ![32, 64]⟩ : Shape).Idx → EReal) (b2 : (⟨1, ![64]⟩ : Shape).Idx → EReal) (e : Fin 500000) (c : Fin 64) :
    Gk src dest ea u batch W1 b1 W2 b2 (ix2 e c)
      = outRow (catRow (fun j => src (ix2 e j)) (fun j => dest (ix2 e j)) (fun j => ea (ix2 e j))
          (pickRow u (batch (ix1 e)))) W1 b1 W2 b2 c := rfl

end EdgeMlp

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KernelValue.lean ====
/-
  What the kernel body computes from its blocks, read row by row over the extended reals.
-/
import proofs.«426121_j19404662243985_1_alg».proof.Proof.Gen.KernelIdeal.Skeleton
import proofs.«426121_j19404662243985_1_alg».proof.Proof.Spec
import proofs.«426121_j19404662243985_1_alg».proof.Proof.LibRowLayers
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx

/-! ## The one-hot matrix -/

/-- The indicator of "the index word of row p is the column number k", made a float: the compare bit widened to a
    word is 1 or 0, and the signed reading of that word is exact. -/
theorem oneHot_apply (x3 : IVec S2048x1 32) (hsc : S2048x1.ShapeCasts S2048x1) (hbc : S2048x1.Broadcasts S2048x1024)
    (hio : S2048x1024.Iotas .tc 32 [1]) (hlt : 1 < 32) (p : Fin 2048) (k : Fin 1024) :
    (sitofp (F := Ideal) .f32 (extui 32 (cmpi .eq (broadcastTo S2048x1024 (shapeCast S2048x1 x3 hsc) hbc)
        (iota .tc S2048x1024 32 [1] hio)) hlt) : FVec Ideal S2048x1024 .f32) (ix2 p k)
      = if x3 (ix2 p (0 : Fin 1)) = BitVec.ofNat 32 k.val then (1 : EReal) else 0 := by
  rw [sitofp_apply, extui_apply]
  show ((((IntOp.cmpi .eq (broadcastTo S2048x1024 (shapeCast S2048x1 x3 hsc) hbc (ix2 p k))
      (iota .tc S2048x1024 32 [1] hio (ix2 p k))).setWidth 32).toInt : ℝ) : EReal) = _
  rw [RowLayers.broadcastColumn_apply, shapeCast_self, iota_single_apply]
  show ((((IntOp.cmpi .eq (x3 (ix2 p (0 : Fin 1))) (BitVec.ofNat 32 k.val)).setWidth 32).toInt : ℝ) : EReal) = _
  have e1 : ((1#1 : BitVec 1).setWidth 32).toInt = 1 := by decide
  have e0 : ((0#1 : BitVec 1).setWidth 32).toInt = 0 := by decide
  by_cases h : x3 (ix2 p (0 : Fin 1)) = BitVec.ofNat 32 k.val
  · have hc : IntOp.cmpi .eq (x3 (ix2 p (0 : Fin 1))) (BitVec.ofNat 32 k.val) = 1#1 := by
      simp [IntOp.cmpi, h]
    rw [if_pos h, hc, e1]
    simp
  · have hb : (x3 (ix2 p (0 : Fin 1)) == BitVec.ofNat 32 k.val) = false := beq_eq_false_iff_ne.mpr h
    have hc : IntOp.cmpi .eq (x3 (ix2 p (0 : Fin 1))) (BitVec.ofNat 32 k.val) = 0#1 := by
      show BitVec.ofBool (x3 (ix2 p (0 : Fin 1)) == BitVec.ofNat 32 k.val) = 0#1
      rw [hb]; rfl
    rw [if_neg h, hc, e0]
    simp

/-! ## The matrix unit's plain product into the zero splat -/

/-- An m×k matrix times a k×n matrix, accumulated into the zero splat, at (a, b): the sum over the contracted
    coordinate of the products of the entries. -/
theorem matmulPlain_apply {m k n : ℕ} {φ₁ φ₂ : FTy}
    (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply (⟨[1], [0], [0], [1], [], [], w⟩ : DotDims ⟨2, ![m, k]⟩ ⟨2, ![k, n]⟩ ⟨2, ![m, n]⟩)
    prec A B (ix2 a b)).trans ?_
  rw [← Equiv.sum_comp (contrEquiv1 (⟨[1], [0], [0], [1], [], [], w⟩ : DotDims ⟨2, ![m, k]⟩ ⟨2, ![k, n]⟩ ⟨2, ![m, n]⟩)
    k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩)
    k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Four blocks laid side by side -/

/-- The concatenation along the columns of blocks of 128, 128, 64 and 64 columns reads, in row p, the four rows laid
    end to end. -/
theorem cat4_apply (a b : S2048x128.Idx → EReal) (c d : S2048x64.Idx → EReal)
    (h : Shape.Concatenates [S2048x128, S2048x128, S2048x64, S2048x64] S2048x384 1) (p : Fin 2048) (j : Fin 384) :
    concatenate S2048x384 1 [⟨S2048x128, a⟩, ⟨S2048x128, b⟩, ⟨S2048x64, c⟩, ⟨S2048x64, d⟩] h (ix2 p j)
      = EdgeMlp.catRow (fun t => a (ix2 p t)) (fun t => b (ix2 p t)) (fun t => c (ix2 p t)) (fun t => d (ix2 p t)) j := by
  unfold EdgeMlp.catRow
  by_cases h1 : j.val < 128
  · rw [dif_pos h1]
    exact concatenate_apply_piece 1 [⟨S2048x128, a⟩, ⟨S2048x128, b⟩, ⟨S2048x64, c⟩, ⟨S2048x64, d⟩] h (ix2 p j) 0 (by simp) _ a
      rfl rfl 0 (by simp) (ix2 p ⟨j.val, h1⟩)
      (fun ax hax => by match ax with | ⟨0, _⟩ => rfl | ⟨1, _⟩ => exact absurd rfl hax) (by show 0 + j.val = j.val; omega)
  · rw [dif_neg h1]
    by_cases h2 : j.val < 256
    · rw [dif_pos h2]
      exact concatenate_apply_piece 1 [⟨S2048x128, a⟩, ⟨S2048x128, b⟩, ⟨S2048x64, c⟩, ⟨S2048x64, d⟩] h (ix2 p j) 1 (by simp) _ b
        rfl rfl 128 (by simp) (ix2 p ⟨j.val - 128, by omega⟩)
        (fun ax hax => by match ax with | ⟨0, _⟩ => rfl | ⟨1, _⟩ => exact absurd rfl hax)
        (by show 128 + (j.val - 128) = j.val; omega)
    · rw [dif_neg h2]
      by_cases h3 : j.val < 320
      · rw [dif_pos h3]
        exact concatenate_apply_piece 1 [⟨S2048x128, a⟩, ⟨S2048x128, b⟩, ⟨S2048x64, c⟩, ⟨S2048x64, d⟩] h (ix2 p j) 2 (by simp) _ c
          rfl rfl 256 (by simp) (ix2 p ⟨j.val - 256, by omega⟩)
          (fun ax hax => by match ax with | ⟨0, _⟩ => rfl | ⟨1, _⟩ => exact absurd rfl hax)
          (by show 256 + (j.val - 256) = j.val; omega)
      · rw [dif_neg h3]
        exact concatenate_apply_piece 1 [⟨S2048x128, a⟩, ⟨S2048x128, b⟩, ⟨S2048x64, c⟩, ⟨S2048x64, d⟩] h (ix2 p j) 3 (by simp) _ d
          rfl rfl 320 (by simp) (ix2 p ⟨j.val - 320, by have := j.isLt; omega⟩)
          (fun ax hax => by match ax with | ⟨0, _⟩ => rfl | ⟨1, _⟩ => exact absurd rfl hax)
          (by show 320 + (j.val - 320) = j.val; have := j.isLt; omega)

/-! ## The activation -/

/-- The scaled exponential linear unit as the body spells it — scale · select(z > 0, z, alpha · (exp z − 1)) with the
    constants splat — at an index is the unit of the entry. -/
theorem seluVec_apply (z : FVec Ideal S2048x32 .f32) (i : S2048x32.Idx) :
    mulf (broadcast S2048x32 (Scalar.ofBits (F := Ideal) .f32 0x3F867D5F#32))
        (select (cmpf .ogt z (broadcast S2048x32 (Scalar.ofBits (F := Ideal) .f32 0x00000000#32))) z
          (mulf (broadcast S2048x32 (Scalar.ofBits (F := Ideal) .f32 0x3FD62D7D#32))
            (subf (exp z) (broadcast S2048x32 (Scalar.ofBits (F := Ideal) .f32 0x3F800000#32))))) i
      = EdgeMlp.selu (z i) := by
  unfold EdgeMlp.selu
  show Ideal.ofBits .f32 0x3F867D5F#32 *
      Scalar.select (Ideal.cmp .ogt (z i) (Ideal.ofBits .f32 0x00000000#32)) (z i)
        (Ideal.ofBits .f32 0x3FD62D7D#32 * (Ideal.exp (z i) - Ideal.ofBits .f32 0x3F800000#32)) = _
  rw [Ideal.ofBits_one_f32]

/-! ## The body's stages, named -/

/-- The one-hot matrix of the block's index words against the table's row numbers, narrowed for the matrix unit. -/
def oneHot (x3 : Vec Ideal S2048x1 .i32) : FVec Ideal S2048x1024 .bf16 :=
  truncf .bf16 (sitofp (F := Ideal) .f32 (extui 32 (cmpi .eq
    (broadcastTo S2048x1024 (shapeCast S2048x1 x3 shapeCasts_S2048x1_S2048x1) broadcasts_S2048x1_S2048x1024)
    (iota .tc S2048x1024 32 [1] iota_S2048x1024_d1_w32)) natLt_1_32)) bitsLt_bf16_f32

/-- The one-hot matrix times the table: one table row per block row. -/
def picked (x3 : Vec Ideal S2048x1 .i32) (u : Vec Ideal S1024x64 .f32) : FVec Ideal S2048x64 .f32 :=
  matmul dot_S2048x1024_S1024x64_S2048x64_1_0_0_1_n_n none (oneHot x3) (truncf .bf16 u bitsLt_bf16_f32)
    (constant (F := Ideal) S2048x64 .f32 0x00000000#32)

/-- The feature block: the three edge blocks and the picked table rows side by side. -/
def feat (x0 x1 : Vec Ideal S2048x128 .f32) (x2 : Vec Ideal S2048x64 .f32) (x3 : Vec Ideal S2048x1 .i32)
    (u : Vec Ideal S1024x64 .f32) : FVec Ideal S2048x384 .f32 :=
  concatenate S2048x384 1 [⟨S2048x128, x0⟩, ⟨S2048x128, x1⟩, ⟨S2048x64, x2⟩, ⟨S2048x64, picked x3 u⟩]
    concatenates_S2048x128_S2048x128_S2048x64_S2048x64_S2048x384_d1

/-- The hidden layer before its activation: the feature block times the first weight matrix, plus the first bias row. -/
def pre (x0 x1 : Vec Ideal S2048x128 .f32) (x2 : Vec Ideal S2048x64 .f32) (x3 : Vec Ideal S2048x1 .i32)
    (u : Vec Ideal S1024x64 .f32) (w1 : Vec Ideal S384x32 .f32) (b1 : Vec Ideal S32 .f32) : FVec Ideal S2048x32 .f32 :=
  addf (matmul dot_S2048x384_S384x32_S2048x32_1_0_0_1_n_n none (truncf .bf16 (feat x0 x1 x2 x3 u) bitsLt_bf16_f32)
      (truncf .bf16 w1 bitsLt_bf16_f32) (constant (F := Ideal) S2048x32 .f32 0x00000000#32))
    (broadcastTo S2048x32 (shapeCast S1x32 b1 shapeCasts_S32_S1x32) broadcasts_S1x32_S2048x32)

/-- The body's hidden block is the activation of that stage, narrowed for the matrix unit. -/
theorem pay2_eq (x0 x1 : Vec Ideal S2048x128 .f32) (x2 : Vec Ideal S2048x64 .f32) (x3 : Vec Ideal S2048x1 .i32)
    (u : Vec Ideal S1024x64 .f32) (w1 : Vec Ideal S384x32 .f32) (b1 : Vec Ideal S32 .f32) :
    k0_pay2 (F := Ideal) x3 u x0 x1 x2 w1 b1
      = truncf .bf16 (mulf (broadcast S2048x32 (Scalar.ofBits (F := Ideal) .f32 0x3F867D5F#32))
          (select (cmpf .ogt (pre x0 x1 x2 x3 u w1 b1) (broadcast S2048x32 (Scalar.ofBits (F := Ideal) .f32 0x00000000#32)))
            (pre x0 x1 x2 x3 u w1 b1)
            (mulf (broadcast S2048x32 (Scalar.ofBits (F := Ideal) .f32 0x3FD62D7D#32))
              (subf (exp (pre x0 x1 x2 x3 u w1 b1)) (broadcast S2048x32 (Scalar.ofBits (F := Ideal) .f32 0x3F800000#32))))))
          bitsLt_bf16_f32 := rfl

/-! ## Each stage read in row p -/

theorem oneHot_at (x3 : Vec Ideal S2048x1 .i32) (p : Fin 2048) (k : Fin 1024) :
    oneHot x3 (ix2 p k) = if x3 (ix2 p (0 : Fin 1)) = BitVec.ofNat 32 k.val then (1 : EReal) else 0 :=
  oneHot_apply x3 shapeCasts_S2048x1_S2048x1 broadcasts_S2048x1_S2048x1024 iota_S2048x1024_d1_w32 natLt_1_32 p k

/-- Row p of the picked rows is the one-hot row of its index word against the table. -/
theorem picked_at (x3 : Vec Ideal S2048x1 .i32) (u : Vec Ideal S1024x64 .f32) (p : Fin 2048) (g : Fin 64) :
    picked x3 u (ix2 p g) = EdgeMlp.pickRow u (x3 (ix2 p (0 : Fin 1))) g := by
  unfold picked EdgeMlp.pickRow
  refine (matmulPlain_apply _ none (oneHot x3) (truncf .bf16 u bitsLt_bf16_f32) p g).trans ?_
  refine Finset.sum_congr rfl fun k _ => ?_
  rw [oneHot_at]
  rfl

/-- Row p of the feature block is the four rows laid end to end. -/
theorem feat_at (x0 x1 : Vec Ideal S2048x128 .f32) (x2 : Vec Ideal S2048x64 .f32) (x3 : Vec Ideal S2048x1 .i32)
    (u : Vec Ideal S1024x64 .f32) (p : Fin 2048) (j : Fin 384) :
    feat x0 x1 x2 x3 u (ix2 p j)
      = EdgeMlp.catRow (fun t => x0 (ix2 p t)) (fun t => x1 (ix2 p t)) (fun t => x2 (ix2 p t))
          (EdgeMlp.pickRow u (x3 (ix2 p (0 : Fin 1)))) j := by
  have hg : (fun t => picked x3 u (ix2 p t)) = EdgeMlp.pickRow u (x3 (ix2 p (0 : Fin 1))) :=
    funext fun t => picked_at x3 u p t
  unfold feat
  rw [cat4_apply, hg]

/-- Row p of the hidden layer before its activation. -/
theorem pre_at (x0 x1 : Vec Ideal S2048x128 .f32) (x2 : Vec Ideal S2048x64 .f32) (x3 : Vec Ideal S2048x1 .i32)
    (u : Vec Ideal S1024x64 .f32) (w1 : Vec Ideal S384x32 .f32) (b1 : Vec Ideal S32 .f32) (p : Fin 2048) (q : Fin 32) :
    pre x0 x1 x2 x3 u w1 b1 (ix2 p q)
      = (∑ j : Fin 384, EdgeMlp.catRow (fun t => x0 (ix2 p t)) (fun t => x1 (ix2 p t)) (fun t => x2 (ix2 p t))
          (EdgeMlp.pickRow u (x3 (ix2 p (0 : Fin 1)))) j * w1 (ix2 j q)) + b1 (ix1 q) := by
  unfold pre
  rw [addf_apply, RowLayers.biasRow_apply]
  refine congrArg (· + b1 (ix1 q)) ?_
  refine (matmulPlain_apply _ none (truncf .bf16 (feat x0 x1 x2 x3 u) bitsLt_bf16_f32) (truncf .bf16 w1 bitsLt_bf16_f32) p q).trans ?_
  refine Finset.sum_congr rfl fun j _ => ?_
  show feat x0 x1 x2 x3 u (ix2 p j) * w1 (ix2 j q) = _
  rw [feat_at]

/-- Row p of the body's hidden block is the hidden layer of the feature row. -/
theorem pay2_at (x0 x1 : Vec Ideal S2048x128 .f32) (x2 : Vec Ideal S2048x64 .f32) (x3 : Vec Ideal S2048x1 .i32)
    (u : Vec Ideal S1024x64 .f32) (w1 : Vec Ideal S384x32 .f32) (b1 : Vec Ideal S32 .f32) (p : Fin 2048) (q : Fin 32) :
    k0_pay2 (F := Ideal) x3 u x0 x1 x2 w1 b1 (ix2 p q)
      = EdgeMlp.hidden (EdgeMlp.catRow (fun t => x0 (ix2 p t)) (fun t => x1 (ix2 p t)) (fun t => x2 (ix2 p t))
          (EdgeMlp.pickRow u (x3 (ix2 p (0 : Fin 1))))) w1 b1 q := by
  unfold EdgeMlp.hidden
  rw [← pre_at]
  exact (congrFun (pay2_eq x0 x1 x2 x3 u w1 b1) (ix2 p q)).trans (seluVec_apply (pre x0 x1 x2 x3 u w1 b1) (ix2 p q))

/-- Row p of the value the body stores is the network's result row of row p of its three edge blocks, the table row
    picked by the block's index word in row p: every layer of the body reads, in row p of its result, row p of its
    row-wise operands only. -/
theorem pay_row (x0 x1 : Vec Ideal S2048x128 .f32) (x2 : Vec Ideal S2048x64 .f32) (x3 : Vec Ideal S2048x1 .i32)
    (u : Vec Ideal S1024x64 .f32) (w1 : Vec Ideal S384x32 .f32) (b1 : Vec Ideal S32 .f32) (w2 : Vec Ideal S32x64 .f32)
    (b2 : Vec Ideal S64 .f32) (p : Fin 2048) (c : Fin 64) :
    k0_pay1 (F := Ideal) (k0_pay2 x3 u x0 x1 x2 w1 b1) (k0_pay3 w2) b2 (ix2 p c)
      = EdgeMlp.outRow (EdgeMlp.catRow (fun j => x0 (ix2 p j)) (fun j => x1 (ix2 p j)) (fun j => x2 (ix2 p j))
          (EdgeMlp.pickRow u (x3 (ix2 p (0 : Fin 1))))) w1 b1 w2 b2 c := by
  unfold EdgeMlp.outRow
  show addf (matmul dot_S2048x32_S32x64_S2048x64_1_0_0_1_n_n none (k0_pay2 (F := Ideal) x3 u x0 x1 x2 w1 b1)
        (truncf .bf16 w2 bitsLt_bf16_f32) (constant (F := Ideal) S2048x64 .f32 0x00000000#32))
      (broadcastTo S2048x64 (shapeCast S1x64 b2 shapeCasts_S64_S1x64) broadcasts_S1x64_S2048x64) (ix2 p c) = _
  rw [addf_apply, RowLayers.biasRow_apply]
  refine congrArg (· + b2 (ix1 c)) ?_
  refine (matmulPlain_apply _ none (k0_pay2 (F := Ideal) x3 u x0 x1 x2 w1 b1) (truncf .bf16 w2 bitsLt_bf16_f32) p c).trans ?_
  refine Finset.sum_congr rfl fun q _ => ?_
  show k0_pay2 (F := Ideal) x3 u x0 x1 x2 w1 b1 (ix2 p q) * w2 (ix2 q c) = _
  rw [pay2_at]

end Cert.KernelIdeal.Val

end
-- ==== Proof.KernelIdealRun.lean ====
/-
  The idealized kernel's run: the proof data of its one pipeline, the body's obligation at every grid point, the
  launch, the frame, and the result array after the run as the per-edge network of the argument arrays.

  The grid has 245 points; point t stages rows 2048·t … 2048·t + 2047 of the three edge arrays and of the index
  column, and writes the same rows of the result back. 500000 = 244 · 2048 + 288, so the last point's blocks overhang
  their arrays by 1760 rows: the fetches there fill only the first 288 rows of the staging buffers and the write-back
  writes only the first 288 rows of the result's. What the body computes in the other rows is never written back, and
  since every layer of the body is row-wise, the 288 kept rows do not depend on them.
-/
import proofs.«426121_j19404662243985_1_alg».proof.Proof.KernelIdealBody
import proofs.«426121_j19404662243985_1_alg».proof.Proof.KernelValue
import proofs.«426121_j19404662243985_1_alg».proof.Proof.Spec
import Idealize.ShloMosaic.Lib.Pipeline.Value
import Idealize.ShloMosaic.Lib.ValueIdx
import Idealize.ShloMosaic.Lib.StableHlo.Run
import proofs.«426121_j19404662243985_1_alg».proof.Proof.LibRowLayers

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule of the five moving windows, decided over the grid -/

/-- Point t's block of each moving window starts at row 2048·t, column 0, and the part of it inside the array has
    min(2048, 500000 − 2048·t) rows and all its columns. -/
theorem sched0 : ∀ t : Fin cfg0.N, win0_0.index t (0 : Fin 2) = t.val ∧ win0_0.index t (1 : Fin 2) = 0
    ∧ win0_0.xsize (grid0.coords t) (0 : Fin 2) = min 2048 (500000 - t.val * 2048) ∧ win0_0.xsize (grid0.coords t) (1 : Fin 2) = 128 :=
  (by decide +kernel : ∀ t : Fin grid0.N, _)
theorem sched1 : ∀ t : Fin cfg0.N, win0_1.index t (0 : Fin 2) = t.val ∧ win0_1.index t (1 : Fin 2) = 0
    ∧ win0_1.xsize (grid0.coords t) (0 : Fin 2) = min 2048 (500000 - t.val * 2048) ∧ win0_1.xsize (grid0.coords t) (1 : Fin 2) = 128 :=
  (by decide +kernel : ∀ t : Fin grid0.N, _)
theorem sched2 : ∀ t : Fin cfg0.N, win0_2.index t (0 : Fin 2) = t.val ∧ win0_2.index t (1 : Fin 2) = 0
    ∧ win0_2.xsize (grid0.coords t) (0 : Fin 2) = min 2048 (500000 - t.val * 2048) ∧ win0_2.xsize (grid0.coords t) (1 : Fin 2) = 64 :=
  (by decide +kernel : ∀ t : Fin grid0.N, _)
theorem sched3 : ∀ t : Fin cfg0.N, win0_3.index t (0 : Fin 2) = t.val ∧ win0_3.index t (1 : Fin 2) = 0
    ∧ win0_3.xsize (grid0.coords t) (0 : Fin 2) = min 2048 (500000 - t.val * 2048) ∧ win0_3.xsize (grid0.coords t) (1 : Fin 2) = 1 :=
  (by decide +kernel : ∀ t : Fin grid0.N, _)
theorem sched9 : ∀ t : Fin cfg0.N, win0_9.index t (0 : Fin 2) = t.val ∧ win0_9.index t (1 : Fin 2) = 0
    ∧ win0_9.xsize (grid0.coords t) (0 : Fin 2) = min 2048 (500000 - t.val * 2048) ∧ win0_9.xsize (grid0.coords t) (1 : Fin 2) = 64 :=
  (by decide +kernel : ∀ t : Fin grid0.N, _)
/-- The four resident windows' one block is the whole array. -/
theorem sched4 : ∀ t : Fin cfg0.N, win0_4.index t (0 : Fin 2) = 0 ∧ win0_4.index t (1 : Fin 2) = 0 :=
  (by decide +kernel : ∀ t : Fin grid0.N, _)
theorem sched5 : ∀ t : Fin cfg0.N, win0_5.index t (0 : Fin 2) = 0 ∧ win0_5.index t (1 : Fin 2) = 0 :=
  (by decide +kernel : ∀ t : Fin grid0.N, _)
theorem sched6 : ∀ t : Fin cfg0.N, win0_6.index t (0 : Fin 1) = 0 :=
  (by decide +kernel : ∀ t : Fin grid0.N, _)
theorem sched7 : ∀ t : Fin cfg0.N, win0_7.index t (0 : Fin 2) = 0 ∧ win0_7.index t (1 : Fin 2) = 0 :=
  (by decide +kernel : ∀ t : Fin grid0.N, _)
theorem sched8 : ∀ t : Fin cfg0.N, win0_8.index t (0 : Fin 1) = 0 :=
  (by decide +kernel : ∀ t : Fin grid0.N, _)

/-! ## The staging buffers' rows inside the array are rows of the argument arrays

Row p of a staging buffer of a moving window just fetched at point t, if that row is inside the array, is row
2048·t + p of the array, whatever the buffer holds past the array's end. -/

theorem blk0_read (c : Dev nD) (t : Fin cfg0.N) (d : S2048x128.Idx → Elt Ideal .f32) (p : Fin 2048) (k : Fin 128)
    (hp : p.val < min 2048 (500000 - t.val * 2048)) :
    win0_0.fill (grid0.coords t) d (iblk m c 0 t) (ix2 p k)
      = m ((c : Thread nD τ).loc main_arg0) (ix2 (⟨t.val * 2048 + p.val, by omega⟩ : Fin 500000) k) := by
  obtain ⟨e0, e1, e2, e3⟩ := sched0 t
  have hm : win0_0.moved (grid0.coords t) (ix2 p k) = true :=
    (win0_0.moved_iff _ _).mpr fun a => by
      match a with
      | ⟨0, _⟩ => show p.val < win0_0.xsize (grid0.coords t) (0 : Fin 2); rw [e2]; exact hp
      | ⟨1, _⟩ => show k.val < win0_0.xsize (grid0.coords t) (1 : Fin 2); rw [e3]; exact k.isLt
  unfold Window.fill
  rw [dif_pos hm]
  unfold iblk
  rw [View.read_apply]
  refine (congrFun (V_main_arg0 m c) _).trans ?_
  congr 1
  funext a; apply Fin.ext
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

theorem blk1_read (c : Dev nD) (t : Fin cfg0.N) (d : S2048x128.Idx → Elt Ideal .f32) (p : Fin 2048) (k : Fin 128)
    (hp : p.val < min 2048 (500000 - t.val * 2048)) :
    win0_1.fill (grid0.coords t) d (iblk m c 1 t) (ix2 p k)
      = m ((c : Thread nD τ).loc main_arg1) (ix2 (⟨t.val * 2048 + p.val, by omega⟩ : Fin 500000) k) := by
  obtain ⟨e0, e1, e2, e3⟩ := sched1 t
  have hm : win0_1.moved (grid0.coords t) (ix2 p k) = true :=
    (win0_1.moved_iff _ _).mpr fun a => by
      match a with
      | ⟨0, _⟩ => show p.val < win0_1.xsize (grid0.coords t) (0 : Fin 2); rw [e2]; exact hp
      | ⟨1, _⟩ => show k.val < win0_1.xsize (grid0.coords t) (1 : Fin 2); rw [e3]; exact k.isLt
  unfold Window.fill
  rw [dif_pos hm]
  unfold iblk
  rw [View.read_apply]
  refine (congrFun (V_main_arg1 m c) _).trans ?_
  congr 1
  funext a; apply Fin.ext
  match a with
  | ⟨0, _⟩ => show win0_1.index t (0 : Fin 2) * 2048 + 1 * p.val = t.val * 2048 + p.val; rw [e0]; omega
  | ⟨1, _⟩ => show win0_1.index t (1 : Fin 2) * 128 + 1 * k.val = k.val; rw [e1]; omega

theorem blk2_read (c : Dev nD) (t : Fin cfg0.N) (d : S2048x64.Idx → Elt Ideal .f32) (p : Fin 2048) (k : Fin 64)
    (hp : p.val < min 2048 (500000 - t.val * 2048)) :
    win0_2.fill (grid0.coords t) d (iblk m c 2 t) (ix2 p k)
      = m ((c : Thread nD τ).loc main_arg2) (ix2 (⟨t.val * 2048 + p.val, by omega⟩ : Fin 500000) k) := by
  obtain ⟨e0, e1, e2, e3⟩ := sched2 t
  have hm : win0_2.moved (grid0.coords t) (ix2 p k) = true :=
    (win0_2.moved_iff _ _).mpr fun a => by
      match a with
      | ⟨0, _⟩ => show p.val < win0_2.xsize (grid0.coords t) (0 : Fin 2); rw [e2]; exact hp
      | ⟨1, _⟩ => show k.val < win0_2.xsize (grid0.coords t) (1 : Fin 2); rw [e3]; exact k.isLt
  unfold Window.fill
  rw [dif_pos hm]
  unfold iblk
  rw [View.read_apply]
  refine (congrFun (V_main_arg2 m c) _).trans ?_
  congr 1
  funext a; apply Fin.ext
  match a with
  | ⟨0, _⟩ => show win0_2.index t (0 : Fin 2) * 2048 + 1 * p.val = t.val * 2048 + p.val; rw [e0]; omega
  | ⟨1, _⟩ => show win0_2.index t (1 : Fin 2) * 64 + 1 * k.val = k.val; rw [e1]; omega

/-- The index column the region stages is the index array laid out as a column by the one host operation before it. -/
theorem V_idx (c : Dev nD) : (V m c main_v0 : S500000x1.Idx → BitVec 32)
    = shapeCast S500000x1 (m ((c : Thread nD τ).loc main_arg4)) shapeCasts_S500000_S500000x1 := by
  dsimp only [Gen.V, Gen.hostOps0]; after_results; rfl

theorem blk3_read (c : Dev nD) (t : Fin cfg0.N) (d : S2048x1.Idx → Elt Ideal .i32) (p : Fin 2048)
    (hp : p.val < min 2048 (500000 - t.val * 2048)) :
    win0_3.fill (grid0.coords t) d (iblk m c 3 t) (ix2 p (0 : Fin 1))
      = m ((c : Thread nD τ).loc main_arg4) (ix1 (⟨t.val * 2048 + p.val, by omega⟩ : Fin 500000)) := by
  obtain ⟨e0, e1, e2, e3⟩ := sched3 t
  have hm : win0_3.moved (grid0.coords t) (ix2 p (0 : Fin 1)) = true :=
    (win0_3.moved_iff _ _).mpr fun a => by
      match a with
      | ⟨0, _⟩ => show p.val < win0_3.xsize (grid0.coords t) (0 : Fin 2); rw [e2]; exact hp
      | ⟨1, _⟩ => show (0 : Fin 1).val < win0_3.xsize (grid0.coords t) (1 : Fin 2); rw [e3]; exact Nat.one_pos
  unfold Window.fill
  rw [dif_pos hm]
  unfold iblk
  rw [View.read_apply]
  refine (congrFun (V_idx m c) _).trans ?_
  refine Eq.trans (congrArg _ (?_ : _ = ix2 (⟨t.val * 2048 + p.val, by omega⟩ : Fin 500000) (0 : Fin 1)))
    (RowLayers.column_apply shapeCasts_S500000_S500000x1 _ _ _)
  funext a; apply Fin.ext
  match a with
  | ⟨0, _⟩ => show win0_3.index t (0 : Fin 2) * 2048 + 1 * p.val = t.val * 2048 + p.val; rw [e0]; omega
  | ⟨1, _⟩ => show win0_3.index t (1 : Fin 2) * 1 + 1 * (0 : Fin 1).val = (0 : Fin 1).val; rw [e1]; rfl

/-! ## The resident windows' one block is the whole array -/

theorem blk4_eq (c : Dev nD) (t : Fin cfg0.N) : iblk m c 4 t = m ((c : Thread nD τ).loc main_arg3) := by
  obtain ⟨e0, e1⟩ := sched4 t
  funext y
  unfold iblk
  rw [View.read_apply]
  refine (congrFun (V_main_arg3 m c) _).trans ?_
  congr 1
  funext a; apply Fin.ext
  match a with
  | ⟨0, _⟩ => show win0_4.index t (0 : Fin 2) * 1024 + 1 * (y 0).val = (y 0).val; rw [e0]; omega
  | ⟨1, _⟩ => show win0_4.index t (1 : Fin 2) * 64 + 1 * (y 1).val = (y 1).val; rw [e1]; omega

theorem blk5_eq (c : Dev nD) (t : Fin cfg0.N) : iblk m c 5 t = m ((c : Thread nD τ).loc main_arg5) := by
  obtain ⟨e0, e1⟩ := sched5 t
  funext y
  unfold iblk
  rw [View.read_apply]
  refine (congrFun (V_main_arg5 m c) _).trans ?_
  congr 1
  funext a; apply Fin.ext
  match a with
  | ⟨0, _⟩ => show win0_5.index t (0 : Fin 2) * 384 + 1 * (y 0).val = (y 0).val; rw [e0]; omega
  | ⟨1, _⟩ => show win0_5.index t (1 : Fin 2) * 32 + 1 * (y 1).val = (y 1).val; rw [e1]; omega

theorem blk6_eq (c : Dev nD) (t : Fin cfg0.N) : iblk m c 6 t = m ((c : Thread nD τ).loc main_arg6) := by
  have e0 := sched6 t
  funext y
  unfold iblk
  rw [View.read_apply]
  refine (congrFun (V_main_arg6 m c) _).trans ?_
  congr 1
  funext a; apply Fin.ext
  match a with
  | ⟨0, _⟩ => show win0_6.index t (0 : Fin 1) * 32 + 1 * (y 0).val = (y 0).val; rw [e0]; omega

theorem blk7_eq (c : Dev nD) (t : Fin cfg0.N) : iblk m c 7 t = m ((c : Thread nD τ).loc main_arg7) := by
  obtain ⟨e0, e1⟩ := sched7 t
  funext y
  unfold iblk
  rw [View.read_apply]
  refine (congrFun (V_main_arg7 m c) _).trans ?_
  congr 1
  funext a; apply Fin.ext
  match a with
  | ⟨0, _⟩ => show win0_7.index t (0 : Fin 2) * 32 + 1 * (y 0).val = (y 0).val; rw [e0]; omega
  | ⟨1, _⟩ => show win0_7.index t (1 : Fin 2) * 64 + 1 * (y 1).val = (y 1).val; rw [e1]; omega

theorem blk8_eq (c : Dev nD) (t : Fin cfg0.N) : iblk m c 8 t = m ((c : Thread nD τ).loc main_arg8) := by
  have e0 := sched8 t
  funext y
  unfold iblk
  rw [View.read_apply]
  refine (congrFun (V_main_arg8 m c) _).trans ?_
  congr 1
  funext a; apply Fin.ext
  match a with
  | ⟨0, _⟩ => show win0_8.index t (0 : Fin 1) * 64 + 1 * (y 0).val = (y 0).val; rw [e0]; omega

/-! ## The proof data -/

/-- The result the run is shown to leave: the per-edge network of the nine argument arrays as launched. -/
def G (c : Dev nD) : Buf (Elt Ideal) ((c : Thread nD τ).loc main_v1) :=
  EdgeMlp.Gk (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The proof data of the one pipeline on a core: the arrays as the region finds them; after the body at point t each
    moving input's buffer at its block, filled out past the array's end with a zero nothing reads, each resident
    input's at the whole array, and the result's at block t of `G`, filled out the same way. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Scalar.ofBits (F := Ideal) .f32 0#32) (iblk m c 0 t)
    | ⟨1, _⟩ => win0_1.fill (grid0.coords t) (fun _ => Scalar.ofBits (F := Ideal) .f32 0#32) (iblk m c 1 t)
    | ⟨2, _⟩ => win0_2.fill (grid0.coords t) (fun _ => Scalar.ofBits (F := Ideal) .f32 0#32) (iblk m c 2 t)
    | ⟨3, _⟩ => win0_3.fill (grid0.coords t) (fun _ => (0#32 : BitVec 32)) (iblk m c 3 t)
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => win0_9.fill (grid0.coords t) (fun _ => Scalar.ofBits (F := Ideal) .f32 0#32)
        (((cfg0.win 9).blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t
    = win0_0.fill (grid0.coords t) (fun _ => Scalar.ofBits (F := Ideal) .f32 0#32) (iblk m c 0 t) := by dsimp only [dats]
theorem after0_1 (c : Dev nD) (t : Fin cfg0.N) : (dats m 0 c).after 1 t
    = win0_1.fill (grid0.coords t) (fun _ => Scalar.ofBits (F := Ideal) .f32 0#32) (iblk m c 1 t) := by dsimp only [dats]
theorem after0_2 (c : Dev nD) (t : Fin cfg0.N) : (dats m 0 c).after 2 t
    = win0_2.fill (grid0.coords t) (fun _ => Scalar.ofBits (F := Ideal) .f32 0#32) (iblk m c 2 t) := by dsimp only [dats]
theorem after0_3 (c : Dev nD) (t : Fin cfg0.N) : (dats m 0 c).after 3 t
    = win0_3.fill (grid0.coords t) (fun _ => (0#32 : BitVec 32)) (iblk m c 3 t) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = win0_9.fill (grid0.coords t) (fun _ => Scalar.ofBits (F := Ideal) .f32 0#32)
        (((cfg0.win 9).blk t).view.read (Elt Ideal) (G m c)) := by dsimp only [dats]

/-! ## What the body finds in each buffer -/

/-- A moving input is fetched at every point: its buffer holds the block on the rows inside the array and, past them,
    words nothing names. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
/-- A resident input's buffer holds the whole array at every point, fetched there or not. -/
theorem before_4 (c : Dev nD) (t : Fin cfg0.N) (d) : (dats m 0 c).before 4 t d = iblk m c 4 t :=
  before0_4_of m (dats m 0 c) (A_eq m c 4) (after0_4 m c) t d
theorem before_5 (c : Dev nD) (t : Fin cfg0.N) (d) : (dats m 0 c).before 5 t d = iblk m c 5 t :=
  before0_5_of m (dats m 0 c) (A_eq m c 5) (after0_5 m c) t d
theorem before_6 (c : Dev nD) (t : Fin cfg0.N) (d) : (dats m 0 c).before 6 t d = iblk m c 6 t :=
  before0_6_of m (dats m 0 c) (A_eq m c 6) (after0_6 m c) t d
theorem before_7 (c : Dev nD) (t : Fin cfg0.N) (d) : (dats m 0 c).before 7 t d = iblk m c 7 t :=
  before0_7_of m (dats m 0 c) (A_eq m c 7) (after0_7 m c) t d
theorem before_8 (c : Dev nD) (t : Fin cfg0.N) (d) : (dats m 0 c).before 8 t d = iblk m c 8 t :=
  before0_8_of m (dats m 0 c) (A_eq m c 8) (after0_8 m c) t d

/-- The result's window is never fetched. -/
theorem fetch0_9 : ∀ t : Fin cfg0.N, (cfg0.win 9).fetch t = false :=
  (by decide +kernel : ∀ t : Fin grid0.N, win0_9.fetch t = false)

/-- The result's buffer was written back at the point before (or nothing has filled it yet): it holds words nothing
    names. -/
theorem before_9 (c : Dev nD) (t : Fin cfg0.N) (d) : (dats m 0 c).before 9 t d = d := by
  unfold Dat.before
  rw [if_neg (by rw [fetch0_9 t]; exact Bool.false_ne_true)]
  by_cases ht : t.val = 0
  · rw [if_pos ht]
  · rw [if_neg ht]; exact if_pos (flush0_9 _)

/-! ## The kept rows of what the body stores -/

/-- At point t, whatever the moving inputs' buffers hold past their arrays' ends, the rows of the stored value that
    the write-back keeps are block t of `G`: row p of the stored value reads row p of the buffers only, and for a kept
    row that is row 2048·t + p of the arrays. -/
theorem cut_out (c : Dev nD) (t : Fin cfg0.N) (d0 d1 : S2048x128.Idx → Elt Ideal .f32) (d2 : S2048x64.Idx → Elt Ideal .f32)
    (d3 : S2048x1.Idx → Elt Ideal .i32) :
    win0_9.cut (grid0.coords t)
        (outBlk (win0_0.fill (grid0.coords t) d0 (iblk m c 0 t)) (win0_1.fill (grid0.coords t) d1 (iblk m c 1 t))
          (win0_2.fill (grid0.coords t) d2 (iblk m c 2 t)) (win0_3.fill (grid0.coords t) d3 (iblk m c 3 t))
          (iblk m c 4 t) (iblk m c 5 t) (iblk m c 6 t) (iblk m c 7 t) (iblk m c 8 t))
      = ((cfg0.win 9).blk t).view.read (Elt Ideal) (G m c) := by
  obtain ⟨e0, e1, e2, e3⟩ := sched9 t
  funext j
  have hj0 : (j 0).val < min 2048 (500000 - t.val * 2048) := by
    have h : (j 0).val < win0_9.xsize (grid0.coords t) (0 : Fin 2) := (j 0).isLt
    rw [e2] at h; exact h
  have hj1 : (j 1).val < 64 := by
    have h : (j 1).val < win0_9.xsize (grid0.coords t) (1 : Fin 2) := (j 1).isLt
    rw [e3] at h; exact h
  have hx : win0_9.xinj (grid0.coords t) j = ix2 (⟨(j 0).val, by omega⟩ : Fin 2048) (⟨(j 1).val, hj1⟩ : Fin 64) := by
    funext a; apply Fin.ext
    match a with
    | ⟨0, _⟩ => rfl
    | ⟨1, _⟩ => rfl
  have he : ((cfg0.win 9).blk t).view.emb j
      = ix2 (⟨t.val * 2048 + (j 0).val, by omega⟩ : Fin 500000) (⟨(j 1).val, hj1⟩ : Fin 64) := by
    funext a; apply Fin.ext
    match a with
    | ⟨0, _⟩ => show win0_9.index t (0 : Fin 2) * 2048 + 1 * (j 0).val = t.val * 2048 + (j 0).val; rw [e0]; omega
    | ⟨1, _⟩ => show win0_9.index t (1 : Fin 2) * 64 + 1 * (j 1).val = (j 1).val; rw [e1]; omega
  rw [View.read_apply, he]
  show outBlk _ _ _ _ _ _ _ _ _ (win0_9.xinj (grid0.coords t) j) = _
  rw [hx, outBlk_eq, Val.pay_row]
  unfold G
  rw [EdgeMlp.Gk_apply, blk4_eq, blk5_eq, blk6_eq, blk7_eq, blk8_eq]
  have h0 : (fun k : Fin 128 => win0_0.fill (grid0.coords t) d0 (iblk m c 0 t) (ix2 (⟨(j 0).val, by omega⟩ : Fin 2048) k))
      = fun k => m ((c : Thread nD τ).loc main_arg0) (ix2 (⟨t.val * 2048 + (j 0).val, by omega⟩ : Fin 500000) k) :=
    funext fun k => blk0_read m c t d0 _ k hj0
  have h1 : (fun k : Fin 128 => win0_1.fill (grid0.coords t) d1 (iblk m c 1 t) (ix2 (⟨(j 0).val, by omega⟩ : Fin 2048) k))
      = fun k => m ((c : Thread nD τ).loc main_arg1) (ix2 (⟨t.val * 2048 + (j 0).val, by omega⟩ : Fin 500000) k) :=
    funext fun k => blk1_read m c t d1 _ k hj0
  have h2 : (fun k : Fin 64 => win0_2.fill (grid0.coords t) d2 (iblk m c 2 t) (ix2 (⟨(j 0).val, by omega⟩ : Fin 2048) k))
      = fun k => m ((c : Thread nD τ).loc main_arg2) (ix2 (⟨t.val * 2048 + (j 0).val, by omega⟩ : Fin 500000) k) :=
    funext fun k => blk2_read m c t d2 _ k hj0
  have h3 : win0_3.fill (grid0.coords t) d3 (iblk m c 3 t) (ix2 (⟨(j 0).val, by omega⟩ : Fin 2048) (0 : Fin 1))
      = m ((c : Thread nD τ).loc main_arg4) (ix1 (⟨t.val * 2048 + (j 0).val, by omega⟩ : Fin 500000)) :=
    blk3_read m c t d3 _ hj0
  rw [h0, h1, h2, h3]
  rfl

/-! ## The body's obligation at every point -/

theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8, before_9 m c t d9]
  iapply (sound_kernel (F := Ideal) c Set.univ (grid0.coords t) _ _ _ _ _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  iintro ⟨H0, H1, H2, H3, H4, H5, H6, H7, H8, H9⟩
  isplitl [HΦ]; · iexact HΦ
  isplitl [Ho]; · iexact Ho
  rw [after0_0, after0_1, after0_2, after0_3, after0_4, after0_5, after0_6, after0_7, after0_8, after0_9]
  simp only [Window.cut_fill]
  isplitl [H0]; · iexists d0; iexact H0
  isplitl [H1]; · iexists d1; iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iexact H8
  iexists (outBlk (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (iblk m c 4 t) (iblk m c 5 t) (iblk m c 6 t) (iblk m c 7 t) (iblk m c 8 t))
  rw [← cut_out m c t d0 d1 d2 d3, Window.fill_cut]
  iexact H9

/-! ## The run and the frame -/

set_option backward.isDefEq.respectTransparency.types false in
/-- From any memory with zero counters every weakly fair execution of @main terminates; every array of the pipeline
    ends at what the proof data computes, every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The nine argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-! ## The result array after the run -/

/-- What point t writes back is block t of `G`. -/
theorem flushed9 (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  exact win0_9.cut_fill _ _ _

/-- An index of the result array is in point t's block iff its row is one of the block's rows inside the array. -/
theorem mem_blk9 (t : Fin cfg0.N) (i : S500000x64.Idx) :
    i ∈ ((cfg0.win 9).blk t).view.set ↔ t.val * 2048 ≤ (i 0).val ∧ (i 0).val < t.val * 2048 + min 2048 (500000 - t.val * 2048) := by
  obtain ⟨e0, e1, e2, e3⟩ := sched9 t
  show i ∈ ((View.whole main_v1).slice (win0_9.rect t)).set ↔ _
  rw [View.set_slice_whole, Rect.mem_set_unit]
  have h1 : (i 1).val < 64 := (i 1).isLt
  constructor
  · intro h
    have h0 : win0_9.index t (0 : Fin 2) * 2048 ≤ (i 0).val ∧ (i 0).val < win0_9.index t (0 : Fin 2) * 2048 + win0_9.xsize (grid0.coords t) (0 : Fin 2) := h 0
    rw [e0, e2] at h0; exact h0
  · intro h a
    match a with
    | ⟨0, _⟩ =>
      show win0_9.index t (0 : Fin 2) * 2048 ≤ (i 0).val ∧ (i 0).val < win0_9.index t (0 : Fin 2) * 2048 + win0_9.xsize (grid0.coords t) (0 : Fin 2)
      rw [e0, e2]; exact h
    | ⟨1, _⟩ =>
      show win0_9.index t (1 : Fin 2) * 64 ≤ (i 1).val ∧ (i 1).val < win0_9.index t (1 : Fin 2) * 64 + win0_9.xsize (grid0.coords t) (1 : Fin 2)
      rw [e1, e3]; omega

/-- Every row of the result array is in the block of the point its row number divided by 2048 names. -/
theorem cover9 (i : S500000x64.Idx) :
    ∃ t : Fin cfg0.N, (cfg0.win 9).flush t = true ∧ i ∈ ((cfg0.win 9).blk t).view.set := by
  have hi : (i 0).val < 500000 := (i 0).isLt
  refine ⟨⟨(i 0).val / 2048, by rw [show cfg0.N = 245 from N_0]; omega⟩, flush0_9 _, ?_⟩
  rw [mem_blk9]
  show (i 0).val / 2048 * 2048 ≤ (i 0).val ∧ (i 0).val < (i 0).val / 2048 * 2048 + min 2048 (500000 - (i 0).val / 2048 * 2048)
  omega

/-- So the result array ends holding `G`. -/
theorem final9 (c : Dev nD) : (dats m 0 c).arrAt 9 cfg0.N = G m c :=
  (dats m 0 c).arrAt_eq_of_cover 9 (G m c) (fun t _ => flushed9 m c t) cover9

/-- The run, read: the result array at the per-edge network of the argument arrays, the arguments unchanged. -/
theorem run_value : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.Hand

end
-- ==== Proof.RefRun.lean ====
/-
  The reference program's run, read back as one term of its arguments.
-/
import proofs.«426121_j19404662243985_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The scaled exponential linear unit as the reference spells it over a whole array: scale · where(z > 0, z,
    alpha · expm1(where(z > 0, 0, z))). -/
def seluWhole (z : FVec F S500000x32 .f32) : FVec F S500000x32 .f32 :=
  mulf (broadcastInDim S500000x32 ![] bcast_S_S500000x32 (constant S_ .f32 0x3F867D5F#32))
    (select (cmpf .ogt z (broadcastInDim S500000x32 ![] bcast_S_S500000x32 (constant S_ .f32 0x00000000#32))) z
      (mulf (broadcastInDim S500000x32 ![] bcast_S_S500000x32 (constant S_ .f32 0x3FD62D7D#32))
        (Host.expm1 (select (cmpf .ogt z (broadcastInDim S500000x32 ![] bcast_S_S500000x32 (constant S_ .f32 0x00000000#32)))
          (broadcastInDim S500000x32 ![] bcast_S_S500000x32 (constant S_ .f32 0x00000000#32)) z))))

/-- The row index the reference looks the table up at: a negative word moved up by 1024, any other word kept. -/
def wrapIdx (a4 : IVec S500000 32) : IVec S500000 32 :=
  select (cmpi .slt a4 (broadcastInDim S500000 ![] bcast_S_S500000 (constantI S_ 32 0#32)))
    (addi a4 (broadcastInDim S500000 ![] bcast_S_S500000 (constantI S_ 32 1024#32))) a4

/-- The reference's result as one term of its nine arguments: the looked-up table rows joined to the three edge arrays,
    the first affine layer, the activation, the second affine layer. -/
def refOut (a0 a1 : FVec F S500000x128 .f32) (a2 : FVec F S500000x64 .f32) (a3 : FVec F S1024x64 .f32) (a4 : IVec S500000 32)
    (a5 : FVec F S384x32 .f32) (a6 : FVec F S32 .f32) (a7 : FVec F S32x64 .f32) (a8 : FVec F S64 .f32) : FVec F S500000x64 .f32 :=
  addf
    (Host.dotGeneral dot_S500000x32_S32x64_S500000x64_1_0_0_1_n_n none
      (seluWhole
        (addf
          (Host.dotGeneral dot_S500000x384_S384x32_S500000x32_1_0_0_1_n_n none
            (concatenate S500000x384 1 [⟨S500000x128, a0⟩, ⟨S500000x128, a1⟩, ⟨S500000x64, a2⟩,
              ⟨S500000x64, Host.gather gather_S1024x64_S500000x1_S500000x64_1_0_n_n_0_1_164 a3
                (broadcastInDim S500000x1 ![0] bcast_S500000_S500000x1_0 (wrapIdx a4))⟩]
              concatenates_S500000x128_S500000x128_S500000x64_S500000x64_S500000x384_d1) a5)
          (broadcastInDim S500000x32 ![0, 1] bcast_S1x32_S500000x32_0_1 (broadcastInDim S1x32 ![1] bcast_S32_S1x32_1 a6))))
      a7)
    (broadcastInDim S500000x64 ![0, 1] bcast_S1x64_S500000x64_0_1 (broadcastInDim S1x64 ![1] bcast_S64_S1x64_1 a8))

/-- The reference's thirty-seven operations in order: the index wrap, the table look-up, the join, the first affine
    layer; the activation's nineteen, each callee's operations at its call site over that call's buffers; the second
    affine layer. -/
abbrev ops : List (HloOp τ sig (Elt F)) :=
  [ nullary main_c (constantI S_ 32 0#32),
    unary main_c main_v0 (broadcastInDim S500000 ![] bcast_S_S500000 : (⟨S_, .i32⟩ : BufTy).Contents (Elt F) → (⟨S500000, .i32⟩ : BufTy).Contents (Elt F)),
    binary main_arg4 main_v0 main_v1 (cmpi .slt : (⟨S500000, .i32⟩ : BufTy).Contents (Elt F) → (⟨S500000, .i32⟩ : BufTy).Contents (Elt F) → (⟨S500000, .i1⟩ : BufTy).Contents (Elt F)),
    nullary main_c_0 (constantI S_ 32 1024#32),
    unary main_c_0 main_v2 (broadcastInDim S500000 ![] bcast_S_S500000 : (⟨S_, .i32⟩ : BufTy).Contents (Elt F) → (⟨S500000, .i32⟩ : BufTy).Contents (Elt F)),
    binary main_arg4 main_v2 main_v3 (addi : (⟨S500000, .i32⟩ : BufTy).Contents (Elt F) → (⟨S500000, .i32⟩ : BufTy).Contents (Elt F) → (⟨S500000, .i32⟩ : BufTy).Contents (Elt F)),
    ternary main_v1 main_v3 main_arg4 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v4 main_v5 (broadcastInDim S500000x1 ![0] bcast_S500000_S500000x1_0 : (⟨S500000, .i32⟩ : BufTy).Contents (Elt F) → (⟨S500000x1, .i32⟩ : BufTy).Contents (Elt F)),
    binary main_arg3 main_v5 main_v6 ((fun x i => Host.gather gather_S1024x64_S500000x1_S500000x64_1_0_n_n_0_1_164 x i) : (⟨S1024x64, .f32⟩ : BufTy).Contents (Elt F) → (⟨S500000x1, .i32⟩ : BufTy).Contents (Elt F) → (⟨S500000x64, .f32⟩ : BufTy).Contents (Elt F)),
    nary ![main_arg0, main_arg1, main_arg2, main_v6] main_v7 (fun u => concatenate S500000x384 1 [⟨S500000x128, u 0⟩, ⟨S500000x128, u 1⟩, ⟨S500000x64, u 2⟩, ⟨S500000x64, u 3⟩] concatenates_S500000x128_S500000x128_S500000x64_S500000x64_S500000x384_d1),
    binary main_v7 main_arg5 main_v8 ((fun l r => Host.dotGeneral dot_S500000x384_S384x32_S500000x32_1_0_0_1_n_n none l r) : (⟨S500000x384, .f32⟩ : BufTy).Contents (Elt F) → (⟨S384x32, .f32⟩ : BufTy).Contents (Elt F) → (⟨S500000x32, .f32⟩ : BufTy).Contents (Elt F)),
    unary main_arg6 main_v9 (broadcastInDim S1x32 ![1] bcast_S32_S1x32_1 : (⟨S32, .f32⟩ : BufTy).Contents (Elt F) → (⟨S1x32, .f32⟩ : BufTy).Contents (Elt F)),
    unary main_v9 main_v10 (broadcastInDim S500000x32 ![0, 1] bcast_S1x32_S500000x32_0_1 : (⟨S1x32, .f32⟩ : BufTy).Contents (Elt F) → (⟨S500000x32, .f32⟩ : BufTy).Contents (Elt F)),
    binary main_v8 main_v10 main_v11 (addf : (⟨S500000x32, .f32⟩ : BufTy).Contents (Elt F) → (⟨S500000x32, .f32⟩ : BufTy).Contents (Elt F) → (⟨S500000x32, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S500000x32 ![] bcast_S_S500000x32),
    TRef.binary (.of main_v11) main_call0.call0.v0 main_call0.call0.v1 (cmpf .ogt),
    TRef.nullary main_call0.call0.cst_0 (constant S_ .f32 0x00000000#32),
    TRef.unary main_call0.call0.cst_0 main_call0.call0.v2 (broadcastInDim S500000x32 ![] bcast_S_S500000x32),
    TRef.binary (.of main_v11) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S500000x32 ![] bcast_S_S500000x32),
    TRef.ternary main_call0.call0.v3 main_call0.call0.call0.v1 (.of main_v11) main_call0.call0.call0.v2 select,
    TRef.unary main_call0.call0.call0.v2 main_call0.call0.v5 Host.expm1,
    TRef.unary main_call0.cst main_call0.call0.v6 id,
    TRef.unary main_call0.call0.v6 main_call0.call0.v7 (broadcastInDim S500000x32 ![] bcast_S_S500000x32),
    TRef.binary main_call0.call0.v7 main_call0.call0.v5 main_call0.call0.v8 mulf,
    TRef.ternary main_call0.call0.v1 (.of main_v11) main_call0.call0.v8 main_call0.call0.call1.v0 select,
    TRef.nullary main_call0.cst_0 (constant S_ .f32 0x3F867D5F#32),
    TRef.unary main_call0.cst_0 main_call0.v1 (broadcastInDim S500000x32 ![] bcast_S_S500000x32),
    TRef.binary main_call0.v1 main_call0.call0.call1.v0 main_call0.v2 mulf,
    binary main_v12 main_arg7 main_v13 ((fun l r => Host.dotGeneral dot_S500000x32_S32x64_S500000x64_1_0_0_1_n_n none l r) : (⟨S500000x32, .f32⟩ : BufTy).Contents (Elt F) → (⟨S32x64, .f32⟩ : BufTy).Contents (Elt F) → (⟨S500000x64, .f32⟩ : BufTy).Contents (Elt F)),
    unary main_arg8 main_v14 (broadcastInDim S1x64 ![1] bcast_S64_S1x64_1 : (⟨S64, .f32⟩ : BufTy).Contents (Elt F) → (⟨S1x64, .f32⟩ : BufTy).Contents (Elt F)),
    unary main_v14 main_v15 (broadcastInDim S500000x64 ![0, 1] bcast_S1x64_S500000x64_0_1 : (⟨S1x64, .f32⟩ : BufTy).Contents (Elt F) → (⟨S500000x64, .f32⟩ : BufTy).Contents (Elt F)),
    binary main_v13 main_v15 main_v16 (addf : (⟨S500000x64, .f32⟩ : BufTy).Contents (Elt F) → (⟨S500000x64, .f32⟩ : BufTy).Contents (Elt F) → (⟨S500000x64, .f32⟩ : BufTy).Contents (Elt F)) ]

/-- The reference is that straight line: the callees' bodies unfolded at their calls, the sequencing reassociated. -/
theorem main_eq (c : Dev nD) : main (F := F) c = seq ops := by
  simp only [main, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nary_bufs_sub .., binary_bufs_sub .., unary_bufs_sub ..,
    unary_bufs_sub .., binary_bufs_sub .., nullary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., unary_bufs_sub .., unary_bufs_sub .., binary_bufs_sub .., ternary_bufs_sub ..,
    nullary_bufs_sub .., unary_bufs_sub .., binary_bufs_sub .., binary_bufs_sub .., unary_bufs_sub .., unary_bufs_sub ..,
    binary_bufs_sub ..⟩

/-- After the whole line the result buffer holds `refOut` of the arguments' contents: each operation's result read at
    its own buffer, every other buffer as it was; a conversion at one format is the identity. -/
theorem out_eq (V : Valuation τ sig (Elt F)) :
    after ops V (main_v16 : DevRef τ sig)
      = refOut (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) := by
  after_results_simp
  rfl

/-- No operation of the line writes an argument. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig) :=
  ⟨by after_results_simp, by after_results_simp, by after_results_simp, by after_results_simp, by after_results_simp, by after_results_simp, by after_results_simp, by after_results_simp, by after_results_simp⟩

/-- On every device, from any memory with zero counters: every weakly fair execution of the reference terminates with
    its result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      obtain ⟨h0, h1, h2, h3, h4, h5, h6, h7, h8⟩ := args_eq (launchContents m c)
      exact ⟨(h c main_v16).trans (out_eq _), (h c main_arg0).trans h0, (h c main_arg1).trans h1, (h c main_arg2).trans h2,
        (h c main_arg3).trans h3, (h c main_arg4).trans h4, (h c main_arg5).trans h5, (h c main_arg6).trans h6,
        (h c main_arg7).trans h7, (h c main_arg8).trans h8⟩)
    (run_seq scopedRefs_eq scopedSems_eq defs main (fun _ => ops) main_eq (fun _ => ops_sub) m ρ)

end Cert.ReferenceIdeal.Hand

end
-- ==== Proof.RefValue.lean ====
/-
  The reference's term, read index by index over the extended reals, is the per-edge network of Spec.lean.
-/
import proofs.«426121_j19404662243985_1_alg».proof.Proof.RefRun
import proofs.«426121_j19404662243985_1_alg».proof.Proof.Spec
import proofs.«426121_j19404662243985_1_alg».proof.Proof.LibRowLayers
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-! ## The two products: one contracted axis, the left operand's columns against the right operand's rows -/

/-- First product, left operand: the row coordinate is the result's. -/
theorem lhs1_0 (j : S500000x32.Idx) (k : dot_S500000x384_S384x32_S500000x32_1_0_0_1_n_n.contr.Idx) :
    (dot_S500000x384_S384x32_S500000x32_1_0_0_1_n_n.lhsIdx j k 0).val = (j 0).val := rfl
/-- First product, left operand: the column coordinate is the contraction position. -/
theorem lhs1_1 (j : S500000x32.Idx) (k : dot_S500000x384_S384x32_S500000x32_1_0_0_1_n_n.contr.Idx) :
    (dot_S500000x384_S384x32_S500000x32_1_0_0_1_n_n.lhsIdx j k 1).val = (k ⟨0, by decide⟩).val := rfl
/-- First product, right operand: the row coordinate is the contraction position. -/
theorem rhs1_0 (j : S500000x32.Idx) (k : dot_S500000x384_S384x32_S500000x32_1_0_0_1_n_n.contr.Idx) :
    (dot_S500000x384_S384x32_S500000x32_1_0_0_1_n_n.rhsIdx j k 0).val = (k ⟨0, by decide⟩).val := rfl
/-- First product, right operand: the column coordinate is the result's. -/
theorem rhs1_1 (j : S500000x32.Idx) (k : dot_S500000x384_S384x32_S500000x32_1_0_0_1_n_n.contr.Idx) :
    (dot_S500000x384_S384x32_S500000x32_1_0_0_1_n_n.rhsIdx j k 1).val = (j 1).val := rfl

/-- The first product at (e, h): the sum over the 384 features of row e times column h. -/
theorem dot1_apply (l : FVec Ideal S500000x384 .f32) (r : FVec Ideal S384x32 .f32) (e : Fin 500000) (h : Fin 32) :
    Host.dotGeneral (F := Ideal) dot_S500000x384_S384x32_S500000x32_1_0_0_1_n_n none l r (ix2 e h)
      = ∑ j : Fin 384, l (ix2 e j) * r (ix2 j h) := by
  refine (Ideal.dotGeneral_apply dot_S500000x384_S384x32_S500000x32_1_0_0_1_n_n none .single l r (ix2 e h)).trans ?_
  rw [← Equiv.sum_comp (contrEquiv1 dot_S500000x384_S384x32_S500000x32_1_0_0_1_n_n 384 rfl rfl).symm]
  refine Finset.sum_congr rfl fun j _ => ?_
  have hk := contrEquiv1_symm_val dot_S500000x384_S384x32_S500000x32_1_0_0_1_n_n 384 rfl rfl j
  have hl : dot_S500000x384_S384x32_S500000x32_1_0_0_1_n_n.lhsIdx (ix2 e h)
      ((contrEquiv1 dot_S500000x384_S384x32_S500000x32_1_0_0_1_n_n 384 rfl rfl).symm j) = ix2 e j := by
    funext ax; apply Fin.ext
    match ax with
    | ⟨0, _⟩ => exact lhs1_0 _ _
    | ⟨1, _⟩ => exact (lhs1_1 _ _).trans hk
  have hr : dot_S500000x384_S384x32_S500000x32_1_0_0_1_n_n.rhsIdx (ix2 e h)
      ((contrEquiv1 dot_S500000x384_S384x32_S500000x32_1_0_0_1_n_n 384 rfl rfl).symm j) = ix2 j h := by
    funext ax; apply Fin.ext
    match ax with
    | ⟨0, _⟩ => exact (rhs1_0 _ _).trans hk
    | ⟨1, _⟩ => exact rhs1_1 _ _
  rw [hl, hr]

/-- Second product, left operand: the row coordinate is the result's. -/
theorem lhs2_0 (j : S500000x64.Idx) (k : dot_S500000x32_S32x64_S500000x64_1_0_0_1_n_n.contr.Idx) :
    (dot_S500000x32_S32x64_S500000x64_1_0_0_1_n_n.lhsIdx j k 0).val = (j 0).val := rfl
/-- Second product, left operand: the column coordinate is the contraction position. -/
theorem lhs2_1 (j : S500000x64.Idx) (k : dot_S500000x32_S32x64_S500000x64_1_0_0_1_n_n.contr.Idx) :
    (dot_S500000x32_S32x64_S500000x64_1_0_0_1_n_n.lhsIdx j k 1).val = (k ⟨0, by decide⟩).val := rfl
/-- Second product, right operand: the row coordinate is the contraction position. -/
theorem rhs2_0 (j : S500000x64.Idx) (k : dot_S500000x32_S32x64_S500000x64_1_0_0_1_n_n.contr.Idx) :
    (dot_S500000x32_S32x64_S500000x64_1_0_0_1_n_n.rhsIdx j k 0).val = (k ⟨0, by decide⟩).val := rfl
/-- Second product, right operand: the column coordinate is the result's. -/
theorem rhs2_1 (j : S500000x64.Idx) (k : dot_S500000x32_S32x64_S500000x64_1_0_0_1_n_n.contr.Idx) :
    (dot_S500000x32_S32x64_S500000x64_1_0_0_1_n_n.rhsIdx j k 1).val = (j 1).val := rfl

/-- The second product at (e, c): the sum over the 32 hidden entries of row e times column c. -/
theorem dot2_apply (l : FVec Ideal S500000x32 .f32) (r : FVec Ideal S32x64 .f32) (e : Fin 500000) (c : Fin 64) :
    Host.dotGeneral (F := Ideal) dot_S500000x32_S32x64_S500000x64_1_0_0_1_n_n none l r (ix2 e c)
      = ∑ h : Fin 32, l (ix2 e h) * r (ix2 h c) := by
  refine (Ideal.dotGeneral_apply dot_S500000x32_S32x64_S500000x64_1_0_0_1_n_n none .single l r (ix2 e c)).trans ?_
  rw [← Equiv.sum_comp (contrEquiv1 dot_S500000x32_S32x64_S500000x64_1_0_0_1_n_n 32 rfl rfl).symm]
  refine Finset.sum_congr rfl fun h _ => ?_
  have hk := contrEquiv1_symm_val dot_S500000x32_S32x64_S500000x64_1_0_0_1_n_n 32 rfl rfl h
  have hl : dot_S500000x32_S32x64_S500000x64_1_0_0_1_n_n.lhsIdx (ix2 e c)
      ((contrEquiv1 dot_S500000x32_S32x64_S500000x64_1_0_0_1_n_n 32 rfl rfl).symm h) = ix2 e h := by
    funext ax; apply Fin.ext
    match ax with
    | ⟨0, _⟩ => exact lhs2_0 _ _
    | ⟨1, _⟩ => exact (lhs2_1 _ _).trans hk
  have hr : dot_S500000x32_S32x64_S500000x64_1_0_0_1_n_n.rhsIdx (ix2 e c)
      ((contrEquiv1 dot_S500000x32_S32x64_S500000x64_1_0_0_1_n_n 32 rfl rfl).symm h) = ix2 h c := by
    funext ax; apply Fin.ext
    match ax with
    | ⟨0, _⟩ => exact (rhs2_0 _ _).trans hk
    | ⟨1, _⟩ => exact rhs2_1 _ _
  rw [hl, hr]

/-! ## The activation -/

/-- The whole-array activation at an index is the scalar one of the entry: where z > 0 both selects take z; elsewhere
    the inner select hands z to the exponential, and expm1 z = exp z − 1. -/
theorem seluWhole_apply (z : FVec Ideal S500000x32 .f32) (i : S500000x32.Idx) :
    seluWhole (F := Ideal) z i = EdgeMlp.selu (z i) := by
  unfold seluWhole EdgeMlp.selu
  rw [mulf_apply, select_apply, mulf_apply, cmpf_apply]
  rw [RowLayers.scalarBroadcast_apply, RowLayers.scalarBroadcast_apply, RowLayers.scalarBroadcast_apply]
  show _ * Scalar.select (Ideal.cmp .ogt (z i) _) (z i)
      (_ * (Ideal.exp (Scalar.select (Ideal.cmp .ogt (z i) _) _ (z i)) - 1)) = _
  by_cases hc : Ideal.cmp .ogt (z i) (Ideal.ofBits .f32 0x00000000#32) = 1
  · simp only [Scalar.select, if_pos hc]
  · simp only [Scalar.select, if_neg hc]
    rw [RowLayers.scalarBroadcast_apply, if_neg hc]

/-! ## The four arrays laid side by side -/

/-- Row e of the side-by-side concatenation is the four rows laid end to end. -/
theorem cat4_apply (x0 x1 : FVec Ideal S500000x128 .f32) (x2 x3 : FVec Ideal S500000x64 .f32) (e : Fin 500000) (j : Fin 384) :
    concatenate S500000x384 1 [⟨S500000x128, x0⟩, ⟨S500000x128, x1⟩, ⟨S500000x64, x2⟩, ⟨S500000x64, x3⟩]
        concatenates_S500000x128_S500000x128_S500000x64_S500000x64_S500000x384_d1 (ix2 e j)
      = EdgeMlp.catRow (fun q => x0 (ix2 e q)) (fun q => x1 (ix2 e q)) (fun q => x2 (ix2 e q)) (fun q => x3 (ix2 e q)) j := by
  unfold EdgeMlp.catRow
  by_cases h1 : j.val < 128
  · rw [dif_pos h1]
    exact concatenate_apply_piece 1 [⟨S500000x128, x0⟩, ⟨S500000x128, x1⟩, ⟨S500000x64, x2⟩, ⟨S500000x64, x3⟩] concatenates_S500000x128_S500000x128_S500000x64_S500000x64_S500000x384_d1 (ix2 e j) 0 (by simp) _ x0 rfl rfl 0 (by simp) (ix2 e ⟨j.val, h1⟩)
      (fun ax hax => by match ax with | ⟨0, _⟩ => rfl | ⟨1, _⟩ => exact absurd rfl hax) (by show 0 + j.val = j.val; omega)
  · rw [dif_neg h1]
    by_cases h2 : j.val < 256
    · rw [dif_pos h2]
      exact concatenate_apply_piece 1 [⟨S500000x128, x0⟩, ⟨S500000x128, x1⟩, ⟨S500000x64, x2⟩, ⟨S500000x64, x3⟩] concatenates_S500000x128_S500000x128_S500000x64_S500000x64_S500000x384_d1 (ix2 e j) 1 (by simp) _ x1 rfl rfl 128 (by simp) (ix2 e ⟨j.val - 128, by omega⟩)
        (fun ax hax => by match ax with | ⟨0, _⟩ => rfl | ⟨1, _⟩ => exact absurd rfl hax) (by show 128 + (j.val - 128) = j.val; omega)
    · rw [dif_neg h2]
      by_cases h3 : j.val < 320
      · rw [dif_pos h3]
        exact concatenate_apply_piece 1 [⟨S500000x128, x0⟩, ⟨S500000x128, x1⟩, ⟨S500000x64, x2⟩, ⟨S500000x64, x3⟩] concatenates_S500000x128_S500000x128_S500000x64_S500000x64_S500000x384_d1 (ix2 e j) 2 (by simp) _ x2 rfl rfl 256 (by simp) (ix2 e ⟨j.val - 256, by omega⟩)
          (fun ax hax => by match ax with | ⟨0, _⟩ => rfl | ⟨1, _⟩ => exact absurd rfl hax) (by show 256 + (j.val - 256) = j.val; omega)
      · rw [dif_neg h3]
        exact concatenate_apply_piece 1 [⟨S500000x128, x0⟩, ⟨S500000x128, x1⟩, ⟨S500000x64, x2⟩, ⟨S500000x64, x3⟩] concatenates_S500000x128_S500000x128_S500000x64_S500000x64_S500000x384_d1 (ix2 e j) 3 (by simp) _ x3 rfl rfl 320 (by simp)
          (ix2 e ⟨j.val - 320, by have := j.isLt; omega⟩)
          (fun ax hax => by match ax with | ⟨0, _⟩ => rfl | ⟨1, _⟩ => exact absurd rfl hax) (by show 320 + (j.val - 320) = j.val; omega)

/-! ## The table lookup -/

/-- A word that is not negative is not moved: the compare against zero gives the bit 0 and the select keeps the word. -/
theorem wrapIdx_apply (a4 : IVec S500000 32) (e : Fin 500000) (h0 : 0 ≤ (a4 (ix1 e)).toInt) :
    wrapIdx a4 (ix1 e) = a4 (ix1 e) := by
  have hs : (a4 (ix1 e)).slt 0#32 = false := by
    rw [BitVec.slt, decide_eq_false_iff_not, BitVec.toInt_zero]; omega
  have hc : IntOp.cmpi .slt (a4 (ix1 e)) 0#32 = 0#1 := by
    show BitVec.ofBool ((a4 (ix1 e)).slt 0#32) = 0#1
    rw [hs]; rfl
  show Scalar.select (IntOp.cmpi .slt (a4 (ix1 e)) 0#32) _ (a4 (ix1 e)) = _
  rw [hc, select_zero]

/-- Row e of the gathered array is the table's row at the start index of e, read signed and clamped into the table:
    the first axis is collapsed and start-indexed, the second is the one offset axis. -/
theorem gatherRow_apply (x : FVec Ideal S1024x64 .f32) (idx : IVec S500000x1 32) (e : Fin 500000) (g : Fin 64)
    (r : Fin 1024) (hr : r.val = min (idx (ix2 e (0 : Fin 1))).toInt.toNat 1023) :
    Host.gather gather_S1024x64_S500000x1_S500000x64_1_0_n_n_0_1_164 x idx (ix2 e g) = x (ix2 r g) := by
  unfold Host.gather
  refine congrArg x (funext fun a => Fin.ext ?_)
  match a with
  | ⟨0, _⟩ =>
    show gather_S1024x64_S500000x1_S500000x64_1_0_n_n_0_1_164.start (ix2 e g) idx 0 + gather_S1024x64_S500000x1_S500000x64_1_0_n_n_0_1_164.batchCoord (ix2 e g) 0 + gather_S1024x64_S500000x1_S500000x64_1_0_n_n_0_1_164.offCoord (ix2 e g) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S1024x64.rank) ∈ gather_S1024x64_S500000x1_S500000x64_1_0_n_n_0_1_164.startIndexMap from List.mem_singleton.mpr rfl)]
    have hsi : gather_S1024x64_S500000x1_S500000x64_1_0_n_n_0_1_164.siIdx (ix2 e g) ⟨List.idxOf (0 : Fin S1024x64.rank) gather_S1024x64_S500000x1_S500000x64_1_0_n_n_0_1_164.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, hr]
    rfl
  | ⟨1, _⟩ =>
    show gather_S1024x64_S500000x1_S500000x64_1_0_n_n_0_1_164.start (ix2 e g) idx 1 + gather_S1024x64_S500000x1_S500000x64_1_0_n_n_0_1_164.batchCoord (ix2 e g) 1 + gather_S1024x64_S500000x1_S500000x64_1_0_n_n_0_1_164.offCoord (ix2 e g) 1 = g.val
    rw [GatherDims.batchCoord_eq_zero _ _ _ List.not_mem_nil]
    unfold GatherDims.start
    rw [dif_neg (show (1 : Fin S1024x64.rank) ∉ gather_S1024x64_S500000x1_S500000x64_1_0_n_n_0_1_164.startIndexMap from by decide)]
    simp only [Nat.add_zero, Nat.zero_add]
    unfold GatherDims.offCoord
    rw [dif_pos (show (1 : Fin S1024x64.rank) ∈ gather_S1024x64_S500000x1_S500000x64_1_0_n_n_0_1_164.sKept from
      (GatherDims.mem_sKept _ _).mpr ⟨by decide, List.not_mem_nil⟩)]
    rfl

/-- With the word of e in 0 ≤ · < 1024 the clamp is the identity and the looked-up row is the one-hot pick. -/
theorem lookup_apply (a3 : FVec Ideal S1024x64 .f32) (a4 : IVec S500000 32) (e : Fin 500000) (g : Fin 64)
    (h0 : 0 ≤ (a4 (ix1 e)).toInt) (h1 : (a4 (ix1 e)).toInt < 1024) :
    Host.gather gather_S1024x64_S500000x1_S500000x64_1_0_n_n_0_1_164 a3 (broadcastInDim S500000x1 ![0] bcast_S500000_S500000x1_0 (wrapIdx a4)) (ix2 e g)
      = EdgeMlp.pickRow a3 (a4 (ix1 e)) g := by
  have hn : (a4 (ix1 e)).toNat < 1024 := by
    have := BitVec.toInt_eq_toNat_cond (a4 (ix1 e)); split at this <;> omega
  rw [EdgeMlp.pickRow_eq a3 _ g h0 h1]
  refine gatherRow_apply a3 _ e g ⟨(a4 (ix1 e)).toNat, hn⟩ ?_
  rw [RowLayers.columnBroadcast_apply, wrapIdx_apply a4 e h0]
  show (a4 (ix1 e)).toNat = min (a4 (ix1 e)).toInt.toNat 1023
  have := BitVec.toInt_eq_toNat_cond (a4 (ix1 e)); split at this <;> omega

/-! ## The whole term -/

/-- Where every index word lies in 0 ≤ · < 1024 the reference's term is the network `EdgeMlp.Gk` of its arguments. -/
theorem refOut_eq (a0 a1 : FVec Ideal S500000x128 .f32) (a2 : FVec Ideal S500000x64 .f32) (a3 : FVec Ideal S1024x64 .f32)
    (a4 : IVec S500000 32) (a5 : FVec Ideal S384x32 .f32) (a6 : FVec Ideal S32 .f32) (a7 : FVec Ideal S32x64 .f32)
    (a8 : FVec Ideal S64 .f32)
    (hb : ∀ e : Fin 500000, 0 ≤ (a4 (ix1 e)).toInt ∧ (a4 (ix1 e)).toInt < 1024) :
    refOut (F := Ideal) a0 a1 a2 a3 a4 a5 a6 a7 a8 = EdgeMlp.Gk a0 a1 a2 a3 a4 a5 a6 a7 a8 := by
  funext i
  obtain ⟨e, c, rfl⟩ : ∃ (e : Fin 500000) (c : Fin 64), i = ix2 e c := ⟨i 0, i 1, eq_ix2 i⟩
  rw [EdgeMlp.Gk_apply]
  unfold refOut EdgeMlp.outRow
  rw [addf_apply, dot2_apply, RowLayers.rowDown_apply, RowLayers.rowBroadcast_apply]
  refine congrArg (· + a8 (ix1 c)) (Finset.sum_congr rfl fun h _ => ?_)
  refine congrArg (· * a7 (ix2 h c)) ?_
  rw [seluWhole_apply]
  unfold EdgeMlp.hidden
  refine congrArg EdgeMlp.selu ?_
  rw [addf_apply, dot1_apply, RowLayers.rowDown_apply, RowLayers.rowBroadcast_apply]
  refine congrArg (· + a6 (ix1 h)) (Finset.sum_congr rfl fun j _ => ?_)
  refine congrArg (· * a5 (ix2 j h)) ?_
  rw [cat4_apply]
  exact congrArg (fun row => EdgeMlp.catRow (fun q => a0 (ix2 e q)) (fun q => a1 (ix2 e q)) (fun q => a2 (ix2 e q)) row j)
    (funext fun q => lookup_apply a3 a4 e q (hb e).1 (hb e).2)

end Cert.ReferenceIdeal.Hand

end
-- ==== Proof.PreDecode.lean ====
/-
  The precondition read at one entry of the index array: every word lies in 0 ≤ · < 1024.
-/
import proofs.«426121_j19404662243985_1_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Hand

open Cert.Pre_finite_inputs Cert.Pre_finite_inputs.Gen Idealize.ShloMosaic Idealize.ShloMosaic.ValueIdx

/-- The precondition's last conjunct, all(batch ≥ 0 ∧ batch < 1024), at entry e. -/
theorem batch_in_range {F : FTy → Type} [FloatOps F] (a0 a1 : FVec F S500000x128 .f32) (a2 : FVec F S500000x64 .f32)
    (a3 : FVec F S1024x64 .f32) (a4 : IVec S500000 32) (a5 : FVec F S384x32 .f32) (a6 : FVec F S32 .f32)
    (a7 : FVec F S32x64 .f32) (a8 : FVec F S64 .f32)
    (h : Cert.Pre_finite_inputs.fn (F := F) a0 a1 a2 a3 a4 a5 a6 a7 a8 = fun _ => 1#1) (e : Fin 500000) :
    0 ≤ (a4 (ix1 e)).toInt ∧ (a4 (ix1 e)).toInt < 1024 := by
  -- the one entry of the rank-0 result
  have h0 := congrFun h ValueIdx.ix0
  dsimp only [fn, fn_part1, fn_part2] at h0
  -- the outermost conjunction: keep its last conjunct, the all-reduce over the index array
  have hlast := (IntOp.andi_eq_one.1 h0).2
  -- the rank-0 result has one index, so every entry of the reduced mask is 1
  haveI : Subsingleton S_.Idx := ⟨fun _ _ => funext fun d => d.elim0⟩
  have he := Host.reduce_andi_all _ _ _ _ _ hlast (ix1 e)
  -- the entry is the conjunction of the two word compares
  obtain ⟨hge, hlt⟩ := IntOp.andi_eq_one.1 he
  -- a scalar broadcast reads the scalar at every entry: the bounds compared against are the words 0 and 1024
  have hge' : (0#32 : BitVec 32).toInt ≤ (a4 (ix1 e)).toInt := IntOp.cmpi_sge.1 hge
  have hlt' : (a4 (ix1 e)).toInt < (1024#32 : BitVec 32).toInt := IntOp.cmpi_slt.1 hlt
  have z0 : (0#32 : BitVec 32).toInt = 0 := by decide
  have z1 : (1024#32 : BitVec 32).toInt = 1024 := by decide
  rw [z0] at hge'
  rw [z1] at hlt'
  exact ⟨hge', hlt'⟩

end Cert.Pre_finite_inputs.Hand

end
-- ==== Proof.lean ====
/-
  The certificate of an edge model's kernel against its jnp reference, over the extended reals.

  Both programs compute, for each of 500000 edges e, a two-layer perceptron of the row
  x[e] = src[e] ‖ dest[e] ‖ edge_attr[e] ‖ u[batch[e]] (384 entries):
      out[e] = selu(x[e] · W1 + b1) · W2 + b2.
  The reference looks the row u[batch[e]] up; the kernel, working on blocks of 2048 edges, multiplies the one-hot row
  [batch[e] = k]_k by the table u. The two agree where 0 ≤ batch[e] < 1024 — the range of the table's rows, which the
  precondition states — and there only: outside it the one-hot row is all zero while a lookup clamps its index.
  Everything else is the same arithmetic in another arrangement: the kernel's changes of float format are the
  identity on extended reals, its matrix-unit products into a zero accumulator are the plain sums of products, its
  exp(z) − 1 is the reference's expm1(z), and where the reference's inner `where` replaces a positive z by 0 before
  expm1 the outer `where` discards that branch. No step needs the inputs to be finite.

  The modules: Spec (the network, row by row, and the one-hot sum as a lookup), KernelValue (the kernel body's
  arithmetic read row by row), KernelIdealBody / KernelBody (the body as a step of the program logic), KernelIdealRun
  (the idealized kernel's run, frame and result array — its last blocks overhang the arrays and are cut), KernelRun
  (the word-level kernel's frame), RefRun (the reference's run), RefValue (its term read index by index), PreDecode
  (the precondition read at one index word).
-/
import proofs.«426121_j19404662243985_1_alg».proof.Defs
import proofs.«426121_j19404662243985_1_alg».proof.Proof.Gen.Kernel
import proofs.«426121_j19404662243985_1_alg».proof.Proof.Gen.KernelIdeal
import proofs.«426121_j19404662243985_1_alg».proof.Proof.Gen.ReferenceIdeal
import proofs.«426121_j19404662243985_1_alg».proof.Proof.Gen.Pre_finite_inputs
import proofs.«426121_j19404662243985_1_alg».proof.Proof.KernelRun
import proofs.«426121_j19404662243985_1_alg».proof.Proof.KernelIdealRun
import proofs.«426121_j19404662243985_1_alg».proof.Proof.RefRun
import proofs.«426121_j19404662243985_1_alg».proof.Proof.RefValue
import proofs.«426121_j19404662243985_1_alg».proof.Proof.PreDecode
import Idealize.ShloMosaic.Adequacy
import Idealize.ShloMosaic.Init

noncomputable section

namespace Cert.Proof

open Idealize.ShloMosaic Idealize.SL.Sem

/-- The word-level kernel runs to the end, faults nowhere and writes no argument array. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- From memories that agree on the nine arguments, the index words in range: the idealized kernel leaves the network
    of its arguments in its result array, the reference computes a term that, read index by index, is the same
    network of the same arguments. -/
theorem algebraic : Cert.algebraic_KernelIdeal_ReferenceIdeal := by
  intro m ρ m' ρ' hpre hagree
  refine ⟨fun c => Cert.KernelIdeal.Hand.G m c, Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8⟩ := hagree c
  rw [a0, a1, a2, a3, a4, a5, a6, a7, a8]
  exact Cert.ReferenceIdeal.Hand.refOut_eq _ _ _ _ _ _ _ _ _
    (fun e => Cert.Pre_finite_inputs.Hand.batch_in_range _ _ _ _ _ _ _ _ _ (hpre c) e)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
